-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S400000x64 : Shape := ⟨2, ![400000, 64]⟩
abbrev S128x64 : Shape := ⟨2, ![128, 64]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S2x400000 : S_.BroadcastsInDim S2x400000 (![] : Fin 0 → Fin S2x400000.rank)
  reducesTo_S2x400000_S_d0_1 : S2x400000.ReducesTo [0, 1] S_

variable [Facts]

def fn_part3 {F : FTy → Type} [FloatOps F] (main_arg1 : IVec S2x400000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x400000 32 := broadcastInDim S2x400000 ![] bcast_S_S2x400000 main_c_20
  let main_v55 : IVec S2x400000 1 := cmpi .sge main_arg1 main_v54
  let main_c_21 : IVec S_ 32 := constantI S_ 32 50000#32
  let main_v56 : IVec S2x400000 32 := broadcastInDim S2x400000 ![] bcast_S_S2x400000 main_c_21
  let main_v57 : IVec S2x400000 1 := cmpi .slt main_arg1 main_v56
  let main_v58 : IVec S2x400000 1 := andi main_v55 main_v57
  let main_c_22 : IVec S_ 1 := constantI S_ 1 1#1
  let main_v59 : IVec S_ 1 := (fun x v => Host.reduce IntOp.andi x v reducesTo_S2x400000_S_d0_1 h_S_) main_v58 main_c_22
  let main_v60 : IVec S_ 1 := andi main_v53 main_v59
  main_v60

def fn_part2 {F : FTy → Type} [FloatOps F] (main_arg1 : IVec S2x400000 32) (main_arg8 : FVec F S128 .f32) (main_arg9 : FVec F S128x64 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x400000 32) (main_arg5 : FVec F S128x256 .f32) (main_arg6 : FVec F S128 .f32) (main_arg7 : FVec F S128x256 .f32) (main_arg8 : FVec F S128 .f32) (main_arg9 : FVec F S128x64 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x400000 32) (main_arg2 : FVec F S400000x64 .f32) (main_arg3 : FVec F S128x64 .f32) (main_arg4 : FVec F S128 .f32) (main_arg5 : FVec F S128x256 .f32) (main_arg6 : FVec F S128 .f32) (main_arg7 : FVec F S128x256 .f32) (main_arg8 : FVec F S128 .f32) (main_arg9 : FVec F S128x64 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x64 .f32 := Host.absf main_arg2
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x400000 : Shape := ⟨2, ![2, 400000]⟩
abbrev S400000x64 : Shape := ⟨2, ![400000, 64]⟩
abbrev S128x64 : Shape := ⟨2, ![128, 64]⟩
abbrev S128 : Shape := ⟨1, ![128]⟩
abbrev S128x256 : Shape := ⟨2, ![128, 256]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x128 : Shape := ⟨2, ![400000, 128]⟩
abbrev S128x128 : Shape := ⟨2, ![128, 128]⟩
abbrev S64x128 : Shape := ⟨2, ![64, 128]⟩
abbrev S1x128 : Shape := ⟨2, ![1, 128]⟩
abbrev S3200x128 : Shape := ⟨2, ![3200, 128]⟩
abbrev S3200x64 : Shape := ⟨2, ![3200, 64]⟩
abbrev S3200 : Shape := ⟨1, ![3200]⟩
abbrev S3200x1 : Shape := ⟨2, ![3200, 1]⟩

abbrev nBuf : Space → Nat
  | .hbm => 78
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S400000x64, .f32⟩
  | .hbm, ⟨3, _⟩ => ⟨S128x64, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x64, .f32⟩
  | .hbm, ⟨10, _⟩ => ⟨S128, .f32⟩
  | .hbm, ⟨11, _⟩ => ⟨S128, .f32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S1, .i32⟩
  | .hbm, ⟨25, _⟩ => ⟨S_, .i32⟩
  | .hbm, ⟨26, _⟩ => ⟨S400000x1, .i32⟩
  | .hbm, ⟨27, _⟩ => ⟨S400000x1, .i1⟩
  | .hbm, ⟨28, _⟩ => ⟨S1x1, .i32⟩
  | .hbm, ⟨29, _⟩ => ⟨S400000x1, .i32⟩
  | .hbm, ⟨30, _⟩ => ⟨S400000x1, .i1⟩
  | .hbm, ⟨31, _⟩ => ⟨S400000x1, .i1⟩
  | .hbm, ⟨32, _⟩ => ⟨S_, .i1⟩
  | .hbm, ⟨33, _⟩ => ⟨S400000, .i1⟩
  | .hbm, ⟨34, _⟩ => ⟨S400000x128, .f32⟩
  | .hbm, ⟨35, _⟩ => ⟨S400000x128, .i1⟩
  | .hbm, ⟨36, _⟩ => ⟨S_, .f32⟩
  | .hbm, ⟨37, _⟩ => ⟨S400000x128, .f32⟩
  | .hbm, ⟨38, _⟩ => ⟨S400000x128, .f32⟩
  | .hbm, ⟨39, _⟩ => ⟨S_, .i32⟩
  | .hbm, ⟨40, _⟩ => ⟨S400000, .i32⟩
  | .hbm, ⟨41, _⟩ => ⟨S400000, .i1⟩
  | .hbm, ⟨42, _⟩ => ⟨S_, .i32⟩
  | .hbm, ⟨43, _⟩ => ⟨S400000, .i32⟩
  | .hbm, ⟨44, _⟩ => ⟨S400000, .i32⟩
  | .hbm, ⟨45, _⟩ => ⟨S400000, .i32⟩
  | .hbm, ⟨46, _⟩ => ⟨S400000x1, .i32⟩
  | .hbm, ⟨47, _⟩ => ⟨S1, .i32⟩
  | .hbm, ⟨48, _⟩ => ⟨S_, .i32⟩
  | .hbm, ⟨49, _⟩ => ⟨S400000x1, .i32⟩
  | .hbm, ⟨50, _⟩ => ⟨S400000x1, .i1⟩
  | .hbm, ⟨51, _⟩ => ⟨S1x1, .i32⟩
  | .hbm, ⟨52, _⟩ => ⟨S400000x1, .i32⟩
  | .hbm, ⟨53, _⟩ => ⟨S400000x1, .i1⟩
  | .hbm, ⟨54, _⟩ => ⟨S400000x1, .i1⟩
  | .hbm, ⟨55, _⟩ => ⟨S_, .i1⟩
  | .hbm, ⟨56, _⟩ => ⟨S400000, .i1⟩
  | .hbm, ⟨57, _⟩ => ⟨S400000x128, .f32⟩
  | .hbm, ⟨58, _⟩ => ⟨S400000x128, .i1⟩
  | .hbm, ⟨59, _⟩ => ⟨S_, .f32⟩
  | .hbm, ⟨60, _⟩ => ⟨S400000x128, .f32⟩
  | .hbm, ⟨61, _⟩ => ⟨S400000x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S64x128, .f32⟩
  | .hbm, ⟨71, _⟩ => ⟨S64x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S400000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x64, .f32⟩
  | .local _ .vmem, ⟨5, _⟩ => ⟨S3200x64, .f32⟩
  | .local _ .vmem, ⟨6, _⟩ => ⟨S64x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S64x128, .f32⟩
  | .local _ .vmem, ⟨15, _⟩ => ⟨S1x128, .f32⟩
  | .local _ .vmem, ⟨16, _⟩ => ⟨S1x128, .f32⟩
  | .local _ .vmem, ⟨17, _⟩ => ⟨S3200x128, .f32⟩
  | .local _ .vmem, ⟨18, _⟩ => ⟨S3200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S3200x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  transposes_S128x64_S64x128_1_0 : S128x64.Transposes [1, 0] S64x128
  shapeCasts_S128_S1x128 : S128.ShapeCasts S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S3200x64_S3200x64_0_0 : ∀ a, (![0, 0] : Fin 2 → Nat) a + S3200x64.size a ≤ S3200x64.size a
  h_S3200x64 : 0 < S3200x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  reduces_S3200x128_S3200 : S3200x128.Reduces [1] S3200
  shapeCasts_S3200_S3200x1 : S3200.ShapeCasts S3200x1
  broadcasts_S3200x1_S3200x128 : S3200x1.Broadcasts S3200x128
  gather_S50000x128_S400000x1_S400000x128_1_0_n_n_0_1_1128_wf : GatherDims.WF S50000x128 S400000x1 S400000x128 [1] [0] [] [0] [] 1 ![1, 128]
  dot_S3200x64_S64x128_S3200x128_1_0_0_1_n_n_wf : DotDims.WF S3200x64 S64x128 S3200x128 [1] [0] [0] [1] [] []
  dot_S3200x128_S128x128_S3200x128_1_0_0_1_n_n_wf : DotDims.WF S3200x128 S128x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .f32 = 32 ∨ (Rect.block (s := S400000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S400000x128.size a
  hwx0_1 : ∀ i : grid0.Coords, EltTy.bits .f32 = 32 ∨ (Rect.block (s := S400000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S400000x64.size a
  hwx0_2 : ∀ i : grid0.Coords, EltTy.bits .f32 = 32 ∨ (Rect.block (s := S400000x64) S3200x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3200x128.size a ≤ S400000x128.size a
  hwx0_14 : ∀ i : grid0.Coords, EltTy.bits .f32 = 32 ∨ (Rect.block (s := S400000x128) S3200x128.size (cc0_transform_14 i) (hinb0_14 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf

abbrev win0_0 : Pipeline.Window sig grid0 :=
  Pipeline.Window.ofSpec (Memref.whole main_v4) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v21) S3200x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S400000x64 : Shape := ⟨2, ![400000, 64]⟩
abbrev S128x64 : Shape := ⟨2, ![128, 64]⟩
abbrev S128 : Shape := ⟨1, ![128]⟩
abbrev S128x256 : Shape := ⟨2, ![128, 256]⟩
abbrev S1x400000 : Shape := ⟨2, ![1, 400000]⟩
abbrev S400000 : Shape := ⟨1, ![400000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S800000x64 : Shape := ⟨2, ![800000, 64]⟩
abbrev S256x128 : Shape := ⟨2, ![256, 128]⟩
abbrev S1x128 : Shape := ⟨2, ![1, 128]⟩
abbrev S64x128 : Shape := ⟨2, ![64, 128]⟩
abbrev S400000x128 : Shape := ⟨2, ![400000, 128]⟩
abbrev S400000x1 : Shape := ⟨2, ![400000, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S400000x64, .f32⟩
  | .hbm, ⟨3, _⟩ => ⟨S128x64, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x64, .f32⟩
  | .hbm, ⟨10, _⟩ => ⟨S128, .f32⟩
  | .hbm, ⟨11, _⟩ => ⟨S128, .f32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x256, .f32⟩
  | .hbm, ⟨37, _⟩ => ⟨S800000x64, .f32⟩
  | .hbm, ⟨38, _⟩ => ⟨S256x128, .f32⟩
  | .hbm, ⟨39, _⟩ => ⟨S800000x128, .f32⟩
  | .hbm, ⟨40, _⟩ => ⟨S1x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S800000x128, .f32⟩
  | .hbm, ⟨45, _⟩ => ⟨S800000x128, .f32⟩
  | .hbm, ⟨46, _⟩ => ⟨S64x128, .f32⟩
  | .hbm, ⟨47, _⟩ => ⟨S800000x128, .f32⟩
  | .hbm, ⟨48, _⟩ => ⟨S1x128, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S800000x128, .f32⟩
  | .hbm, ⟨53, _⟩ => ⟨S800000x128, .f32⟩
  | .hbm, ⟨54, _⟩ => ⟨S800000x256, .f32⟩
  | .hbm, ⟨55, _⟩ => ⟨S256x128, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S400000x128, .f32⟩
  | .hbm, ⟨64, _⟩ => ⟨S400000x128, .f32⟩
  | .hbm, ⟨65, _⟩ => ⟨S400000x128, .f32⟩
  | .hbm, ⟨66, _⟩ => ⟨S_, .f32⟩
  | .hbm, ⟨67, _⟩ => ⟨S400000x128, .f32⟩
  | .hbm, ⟨68, _⟩ => ⟨S400000x128, .f32⟩
  | .hbm, ⟨69, _⟩ => ⟨S64x128, .f32⟩
  | .hbm, ⟨70, _⟩ => ⟨S400000x128, .f32⟩
  | .hbm, ⟨71, _⟩ => ⟨S400000x128, .f32⟩
  | .hbm, ⟨72, _⟩ => ⟨S_, .f32⟩
  | .hbm, ⟨73, _⟩ => ⟨S400000, .f32⟩
  | .hbm, ⟨74, _⟩ => ⟨S400000x1, .f32⟩
  | .hbm, ⟨75, _⟩ => ⟨S_, .f32⟩
  | .hbm, ⟨76, _⟩ => ⟨S400000x1, .f32⟩
  | .hbm, ⟨77, _⟩ => ⟨S400000x1, .f32⟩
  | .hbm, ⟨78, _⟩ => ⟨S400000x128, .f32⟩
  | .hbm, ⟨79, _⟩ => ⟨S400000x128, .f32⟩
  | .hbm, ⟨80, _⟩ => ⟨S400000x128, .f32⟩
  | .hbm, ⟨81, _⟩ => ⟨S_, .f32⟩
  | .hbm, ⟨82, _⟩ => ⟨S400000, .f32⟩
  | .hbm, ⟨83, _⟩ => ⟨S400000x1, .f32⟩
  | .hbm, ⟨84, _⟩ => ⟨S_, .f32⟩
  | .hbm, ⟨85, _⟩ => ⟨S400000x1, .f32⟩
  | .hbm, ⟨86, _⟩ => ⟨S400000x1, .f32⟩
  | .hbm, ⟨87, _⟩ => ⟨S400000x128, .f32⟩
  | .hbm, ⟨88, _⟩ => ⟨S400000x128, .f32⟩
  | .hbm, ⟨89, _⟩ => ⟨S_, .f32⟩
  | .hbm, ⟨90, _⟩ => ⟨S400000x1, .f32⟩
  | .hbm, ⟨91, _⟩ => ⟨S400000x1, .f32⟩
  | .hbm, ⟨92, _⟩ => ⟨S400000x1, .f32⟩
  | .hbm, ⟨93, _⟩ => ⟨S400000x128, .f32⟩
  | .hbm, ⟨94, _⟩ => ⟨S400000x128, .f32⟩
  | .hbm, ⟨95, _⟩ => ⟨S1x128, .f32⟩
  | .hbm, ⟨96, _⟩ => ⟨S400000x128, .f32⟩
  | .hbm, ⟨97, _⟩ => ⟨S400000x128, .f32⟩
  | .hbm, ⟨98, _⟩ => ⟨S1x128, .f32⟩
  | .hbm, ⟨99, _⟩ => ⟨S400000x128, .f32⟩
  | .hbm, ⟨100, _⟩ => ⟨S400000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_v50 : Ref sig .tc := ⟨.hbm, 74, rfl⟩
abbrev main_cst_4 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_5 : Ref sig .tc := ⟨.hbm, 81, rfl⟩
abbrev main_v56 : Ref sig .tc := ⟨.hbm, 82, rfl⟩
abbrev main_v57 : Ref sig .tc := ⟨.hbm, 83, rfl⟩
abbrev main_cst_6 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S400000_S800000_d0 : Shape.Concatenates [S400000, S400000] S800000 0
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  concatenates_S400000x64_S400000x64_S800000x64_d0 : Shape.Concatenates [S400000x64, S400000x64] S800000x64 0
  transposes_S128x256_S256x128_1_0 : S128x256.Transposes [1, 0] S256x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x64_S64x128_1_0 : S128x64.Transposes [1, 0] S64x128
  slices_S800000x128_S400000x128_0_0 : S800000x128.Slices ![0, 0] S400000x128
  slices_S800000x128_S400000x128_400000_0 : S800000x128.Slices ![400000, 0] S400000x128
  bcast_S_S400000x128 : S_.BroadcastsInDim S400000x128 (![] : Fin 0 → Fin S400000x128.rank)
  reducesTo_S400000x128_S400000_d1 : S400000x128.ReducesTo [1] S400000
  h_S_ : 0 < S_.numel
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S1x128_S400000x128_0_1 : S1x128.BroadcastsInDim S400000x128 (![0, 1] : Fin 2 → Fin S400000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x64_S64x128_S800000x128_1_0_0_1_n_n_wf : DotDims.WF S800000x64 S64x128 S800000x128 [1] [0] [0] [1] [] []
  dot_S400000x64_S64x128_S400000x128_1_0_0_1_n_n_wf : DotDims.WF S400000x64 S64x128 S400000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S400000x64_S64x128_S400000x128_1_0_0_1_n_n : DotDims S400000x64 S64x128 S400000x128 where
  lhsContracting := [1]
  rhsContracting := [0]
  lhsNonContracting := [0]
  rhsNonContracting := [1]
  lhsBatch := []
  rhsBatch := []
  wf := dot_S400000x64_S64x128_S400000x128_1_0_0_1_n_n_wf

class Facts : Prop extends Facts₀ where

variable [Facts]
-- ==== Proof.RefRun.lean ====
/-
  The reference program's run, read: every weakly fair execution of the reference's 89 host operations ends with its
  result buffer at `val_main_v72` of the argument arrays — the stage functions read one operation at a time — and the
  arguments unchanged.

  The contents after a list of operations is a fold over the list, so the fold over the whole list is the fold over a
  tail from the fold over the matching head.  The list is cut before each of its concatenations of computed arrays —
  the doubled index lists, the two gathered node-row arrays side by side, the node and edge projections side by side —
  and each stretch is read from an ARBITRARY contents `W` at its entry, knowing only what `W` holds at the few buffers
  the stretch reads; the stretches then chain.
-/
import proofs.«417609_j9148280340719_1_alg».proof.Proof.RefOps
import proofs.«417609_j9148280340719_1_alg».proof.Proof.ReadP
import Idealize.ShloMosaic.Lib.StableHlo.Run

set_option maxRecDepth 16384
-- each stretch is a literal list of up to 47 operations over full-size shapes: the folds below need more than the default budget
set_option maxHeartbeats 40000000

noncomputable section

namespace Cert.EdgeMlp.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The four stretches: operations 0–3 (the two rows of the index array), 4–23 (the doubled index lists, wrapped, and
    the two gathers), 24–41 (the node and edge projections), 42–88 (the combine layer, the halves' average, the skip
    projection and the layer norm). -/
abbrev opsA : List (HloOp τ sig (Elt F)) := (ops (F := F)).take 4
abbrev opsB : List (HloOp τ sig (Elt F)) := ((ops (F := F)).drop 4).take 20
abbrev opsC : List (HloOp τ sig (Elt F)) := ((ops (F := F)).drop 24).take 18
abbrev opsD : List (HloOp τ sig (Elt F)) := (ops (F := F)).drop 42

/-- The fold over the whole list is the fold over the stretches in turn. -/
theorem after_split (V : Valuation τ sig (Elt F)) :
    after (ops (F := F)) V = after opsD (after opsC (after opsB (after opsA V))) := rfl

section Stretches

variable (W : Valuation τ sig (Elt F))
  (x0 : (⟨S50000x128, .f32⟩ : BufTy).Contents (Elt F)) (x1 : (⟨S2x400000, .i32⟩ : BufTy).Contents (Elt F))
  (x2 : (⟨S400000x64, .f32⟩ : BufTy).Contents (Elt F)) (x3 : (⟨S128x64, .f32⟩ : BufTy).Contents (Elt F))
  (x4 : (⟨S128, .f32⟩ : BufTy).Contents (Elt F)) (x5 : (⟨S128x256, .f32⟩ : BufTy).Contents (Elt F))
  (x6 : (⟨S128, .f32⟩ : BufTy).Contents (Elt F)) (x7 : (⟨S128x256, .f32⟩ : BufTy).Contents (Elt F))
  (x8 : (⟨S128, .f32⟩ : BufTy).Contents (Elt F)) (x9 : (⟨S128x64, .f32⟩ : BufTy).Contents (Elt F))
  (x10 x11 : (⟨S128, .f32⟩ : BufTy).Contents (Elt F))

/-- After the first stretch the first row of the index array. -/
theorem stageA_v1 (h1 : W (Proc.devRef .tc main_arg1) = x1) :
    after opsA W (Proc.devRef .tc main_v1) = val_main_v1 (F := F) x1 := by
  simp only [opsA, ops, List.take_succ_cons, List.take_zero]
  after_results_simp
  rw [h1]; rfl

/-- After the first stretch the second row of the index array. -/
theorem stageA_v3 (h1 : W (Proc.devRef .tc main_arg1) = x1) :
    after opsA W (Proc.devRef .tc main_v3) = val_main_v3 (F := F) x1 := by
  simp only [opsA, ops, List.take_succ_cons, List.take_zero]
  after_results_simp
  rw [h1]; rfl

/-- After the second stretch the first gathered array: the node rows the wrapped first-endpoint-then-second-endpoint
    index list names. -/
theorem stageB_v12 (h0 : W (Proc.devRef .tc main_arg0) = x0) (hv1 : W (Proc.devRef .tc main_v1) = val_main_v1 (F := F) x1)
    (hv3 : W (Proc.devRef .tc main_v3) = val_main_v3 (F := F) x1) :
    after opsB W (Proc.devRef .tc main_v12) = val_main_v12 (F := F) x0 x1 := by
  simp only [opsB, ops, List.drop_succ_cons, List.drop_zero, List.take_succ_cons, List.take_zero]
  after_results
  rw [h0, hv1, hv3]; rfl

/-- After the second stretch the second gathered array: the same for the list with the endpoints swapped. -/
theorem stageB_v19 (h0 : W (Proc.devRef .tc main_arg0) = x0) (hv1 : W (Proc.devRef .tc main_v1) = val_main_v1 (F := F) x1)
    (hv3 : W (Proc.devRef .tc main_v3) = val_main_v3 (F := F) x1) :
    after opsB W (Proc.devRef .tc main_v19) = val_main_v19 (F := F) x0 x1 := by
  simp only [opsB, ops, List.drop_succ_cons, List.drop_zero, List.take_succ_cons, List.take_zero]
  after_results
  rw [h0, hv1, hv3]; rfl

/-- After the third stretch the node projection of the doubled edge list. -/
theorem stageC_v27 (hv12 : W (Proc.devRef .tc main_v12) = val_main_v12 (F := F) x0 x1)
    (hv19 : W (Proc.devRef .tc main_v19) = val_main_v19 (F := F) x0 x1) (h5 : W (Proc.devRef .tc main_arg5) = x5)
    (h6 : W (Proc.devRef .tc main_arg6) = x6) :
    after opsC W (Proc.devRef .tc main_v27) = val_main_v27 (F := F) x0 x1 x5 x6 := by
  simp only [opsC, ops, List.drop_succ_cons, List.drop_zero, List.take_succ_cons, List.take_zero]
  after_results
  rw [hv12, hv19, h5, h6]; rfl

/-- After the third stretch the edge projection of the doubled edge attributes. -/
theorem stageC_v33 (h2 : W (Proc.devRef .tc main_arg2) = x2) (h3 : W (Proc.devRef .tc main_arg3) = x3) (h4 : W (Proc.devRef .tc main_arg4) = x4) :
    after opsC W (Proc.devRef .tc main_v33) = val_main_v33 (F := F) x2 x3 x4 := by
  simp only [opsC, ops, List.drop_succ_cons, List.drop_zero, List.take_succ_cons, List.take_zero]
  after_results
  rw [h2, h3, h4]; rfl

/-- After the last stretch the result. -/
theorem stageD_v72 (hv27 : W (Proc.devRef .tc main_v27) = val_main_v27 (F := F) x0 x1 x5 x6)
    (hv33 : W (Proc.devRef .tc main_v33) = val_main_v33 (F := F) x2 x3 x4) (h2 : W (Proc.devRef .tc main_arg2) = x2)
    (h7 : W (Proc.devRef .tc main_arg7) = x7) (h8 : W (Proc.devRef .tc main_arg8) = x8) (h9 : W (Proc.devRef .tc main_arg9) = x9)
    (h10 : W (Proc.devRef .tc main_arg10) = x10) (h11 : W (Proc.devRef .tc main_arg11) = x11) :
    after opsD W (Proc.devRef .tc main_v72) = val_main_v72 (F := F) x0 x1 x2 x3 x4 x5 x6 x7 x8 x9 x10 x11 := by
  simp only [opsD, ops, List.drop_succ_cons, List.drop_zero]
  after_results_simp
  rw [hv27, hv33, h2, h7, h8, h9, h10, h11]; rfl

end Stretches

/-! No operation writes an argument array, so an argument is found unchanged at the entry of every stretch and after
    the whole list. -/

section Kept

variable (V : Valuation τ sig (Elt F))

/-- The twelve argument buffers. -/
abbrev args : List (Ref sig .tc) := [main_arg0, main_arg1, main_arg2, main_arg3, main_arg4, main_arg5, main_arg6, main_arg7, main_arg8, main_arg9, main_arg10, main_arg11]

/-- Closes `after L V b = V b` for a literal stretch `L` none of whose operations writes `b`: the fold is opened and each
    operation's result at another buffer is what was there. -/
local macro "kept_in_stretch" : tactic => `(tactic| (
  simp only [opsA, opsB, opsC, opsD, ops, List.drop_succ_cons, List.drop_zero, List.take_succ_cons, List.take_zero]
  after_results_simp))

theorem keptA (b : Ref sig .tc) (hb : b ∈ args) : after opsA V (Proc.devRef .tc b) = V (Proc.devRef .tc b) := by
  simp only [args, List.mem_cons, List.not_mem_nil, or_false] at hb
  rcases hb with rfl | rfl | rfl | rfl | rfl | rfl | rfl | rfl | rfl | rfl | rfl | rfl <;> kept_in_stretch

theorem keptB (b : Ref sig .tc) (hb : b ∈ args) : after opsB V (Proc.devRef .tc b) = V (Proc.devRef .tc b) := by
  simp only [args, List.mem_cons, List.not_mem_nil, or_false] at hb
  rcases hb with rfl | rfl | rfl | rfl | rfl | rfl | rfl | rfl | rfl | rfl | rfl | rfl <;> kept_in_stretch

theorem keptC (b : Ref sig .tc) (hb : b ∈ args) : after opsC V (Proc.devRef .tc b) = V (Proc.devRef .tc b) := by
  simp only [args, List.mem_cons, List.not_mem_nil, or_false] at hb
  rcases hb with rfl | rfl | rfl | rfl | rfl | rfl | rfl | rfl | rfl | rfl | rfl | rfl <;> kept_in_stretch

theorem keptD (b : Ref sig .tc) (hb : b ∈ args) : after opsD V (Proc.devRef .tc b) = V (Proc.devRef .tc b) := by
  simp only [args, List.mem_cons, List.not_mem_nil, or_false] at hb
  rcases hb with rfl | rfl | rfl | rfl | rfl | rfl | rfl | rfl | rfl | rfl | rfl | rfl <;> kept_in_stretch

/-- An argument buffer after the whole list holds what it held before. -/
theorem kept (b : Ref sig .tc) (hb : b ∈ args) : after (ops (F := F)) V (Proc.devRef .tc b) = V (Proc.devRef .tc b) := by
  rw [after_split, keptD _ b hb, keptC _ b hb, keptB _ b hb, keptA _ b hb]

end Kept

/-- The result buffer after the whole list is the last stage function of the launch contents of the arguments. -/
theorem value (V : Valuation τ sig (Elt F)) :
    after (ops (F := F)) V (Proc.devRef .tc main_v72)
      = val_main_v72 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10))
          (V (Proc.devRef .tc main_arg11)) := by
  rw [after_split]
  have hv1 := stageA_v1 V (V (Proc.devRef .tc main_arg1)) rfl
  have hv3 := stageA_v3 V (V (Proc.devRef .tc main_arg1)) rfl
  have hv12 := stageB_v12 (after opsA V) (V (Proc.devRef .tc main_arg0)) (V (Proc.devRef .tc main_arg1)) (keptA V main_arg0 (by decide)) hv1 hv3
  have hv19 := stageB_v19 (after opsA V) (V (Proc.devRef .tc main_arg0)) (V (Proc.devRef .tc main_arg1)) (keptA V main_arg0 (by decide)) hv1 hv3
  have hv27 := stageC_v27 (after opsB (after opsA V)) (V (Proc.devRef .tc main_arg0)) (V (Proc.devRef .tc main_arg1))
    (V (Proc.devRef .tc main_arg5)) (V (Proc.devRef .tc main_arg6)) hv12 hv19
    ((keptB _ main_arg5 (by decide)).trans (keptA V main_arg5 (by decide))) ((keptB _ main_arg6 (by decide)).trans (keptA V main_arg6 (by decide)))
  have hv33 := stageC_v33 (after opsB (after opsA V)) (V (Proc.devRef .tc main_arg2)) (V (Proc.devRef .tc main_arg3))
    (V (Proc.devRef .tc main_arg4)) ((keptB _ main_arg2 (by decide)).trans (keptA V main_arg2 (by decide))) ((keptB _ main_arg3 (by decide)).trans (keptA V main_arg3 (by decide)))
    ((keptB _ main_arg4 (by decide)).trans (keptA V main_arg4 (by decide)))
  exact stageD_v72 (after opsC (after opsB (after opsA V))) _ _ _ _ _ _ _ _ _ _ _ _ hv27 hv33
    ((keptC _ main_arg2 (by decide)).trans ((keptB _ main_arg2 (by decide)).trans (keptA V main_arg2 (by decide))))
    ((keptC _ main_arg7 (by decide)).trans ((keptB _ main_arg7 (by decide)).trans (keptA V main_arg7 (by decide))))
    ((keptC _ main_arg8 (by decide)).trans ((keptB _ main_arg8 (by decide)).trans (keptA V main_arg8 (by decide))))
    ((keptC _ main_arg9 (by decide)).trans ((keptB _ main_arg9 (by decide)).trans (keptA V main_arg9 (by decide))))
    ((keptC _ main_arg10 (by decide)).trans ((keptB _ main_arg10 (by decide)).trans (keptA V main_arg10 (by decide))))
    ((keptC _ main_arg11 (by decide)).trans ((keptB _ main_arg11 (by decide)).trans (keptA V main_arg11 (by decide))))

/-- On every device, from any memory with zero counters: every weakly fair execution of the reference's @main terminates
    with its result at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72)
        = val_main_v72 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v72).trans (value _),
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide)),
      (h c main_arg6).trans (kept _ main_arg6 (by decide)),
      (h c main_arg7).trans (kept _ main_arg7 (by decide)),
      (h c main_arg8).trans (kept _ main_arg8 (by decide)),
      (h c main_arg9).trans (kept _ main_arg9 (by decide)),
      (h c main_arg10).trans (kept _ main_arg10 (by decide)),
      (h c main_arg11).trans (kept _ main_arg11 (by decide))⟩)
    (run_seq scopedRefs_eq scopedSems_eq defs main (fun _ => ops) main_eq (fun _ => ops_sub) m ρ)

end Cert.EdgeMlp.RefRun

end
-- ==== Proof.Spec.lean ====
/-
  The mathematics of the fused edge block, stated once over the extended reals, with no program in sight.

  For one edge the block takes the two gathered node rows `a`, `b` (128 numbers each) and the edge's attribute row
  `e` (64 numbers).  With weight matrices given in (input, output) orientation it forms

    pe      = relu (e · We + be)
    pn a b  = relu ((a · Wn1 + b · Wn2) + bn)
    comb a b = relu ((pn a b · Wc1 + pe · Wc2) + bc)
    pre     = (comb a b + comb b a) · ½ + e · Ws
    out     = layer norm of `pre` over its 128 lanes, scaled by gamma and shifted by beta.

  `comb a b` is the forward direction of the edge and `comb b a` the reversed one: the two differ only by which of
  the two node rows meets which half of the node weights.  A dense layer applied to the concatenation of two
  128-vectors is the sum of the two half layers (`sum_split`): this is the one algebraic law the comparison of the
  two programs needs, and it holds in any commutative additive monoid, so no finiteness is used.
-/
import Idealize.ShloMosaic.PureOps.Ideal
import Idealize.ShloMosaic.PureOps.Ideal.Laws
import Idealize.ShloMosaic.Lib.ValueIdx
import Mathlib.Algebra.BigOperators.Fin

noncomputable section

namespace Cert.EdgeMlp

open Idealize.ShloMosaic Idealize.ShloMosaic.ValueIdx

/-- The literal 0.0 both programs clamp against and accumulate from. -/
abbrev cZero : EReal := Ideal.ofBits .f32 0x00000000#32
/-- The literal 0.5 that averages the two directions. -/
abbrev cHalf : EReal := Ideal.ofBits .f32 0x3F000000#32
/-- The literal 128.0, the number of lanes a mean divides by. -/
abbrev cLanes : EReal := Ideal.ofBits .f32 0x43000000#32
/-- The layer norm's epsilon, the same word in both programs. -/
abbrev cEps : EReal := Ideal.ofBits .f32 0x3727C5AC#32

/-- The weights of the block, every matrix in (input, output) orientation. -/
@[ext] structure Params where
  We : Fin 64 → Fin 128 → EReal
  be : Fin 128 → EReal
  Wn1 : Fin 128 → Fin 128 → EReal
  Wn2 : Fin 128 → Fin 128 → EReal
  bn : Fin 128 → EReal
  Wc1 : Fin 128 → Fin 128 → EReal
  Wc2 : Fin 128 → Fin 128 → EReal
  bc : Fin 128 → EReal
  Ws : Fin 64 → Fin 128 → EReal
  gamma : Fin 128 → EReal
  beta : Fin 128 → EReal

/-- `max x 0`. -/
def relu (x : EReal) : EReal := max x cZero

/-- The edge projection: relu (e · We + be). -/
def pe (P : Params) (e : Fin 64 → EReal) (j : Fin 128) : EReal :=
  relu ((∑ k : Fin 64, e k * P.We k j) + P.be j)

/-- The node projection of an ordered pair of node rows: relu ((a · Wn1 + b · Wn2) + bn). -/
def pn (P : Params) (a b : Fin 128 → EReal) (j : Fin 128) : EReal :=
  relu (((∑ k : Fin 128, a k * P.Wn1 k j) + (∑ k : Fin 128, b k * P.Wn2 k j)) + P.bn j)

/-- One direction of the edge: relu ((pn a b · Wc1 + pe e · Wc2) + bc). -/
def comb (P : Params) (a b : Fin 128 → EReal) (e : Fin 64 → EReal) (j : Fin 128) : EReal :=
  relu (((∑ k : Fin 128, pn P a b k * P.Wc1 k j) + (∑ k : Fin 128, pe P e k * P.Wc2 k j)) + P.bc j)

/-- The two directions averaged, plus the skip projection of the edge attributes. -/
def pre (P : Params) (a b : Fin 128 → EReal) (e : Fin 64 → EReal) (j : Fin 128) : EReal :=
  (comb P a b e j + comb P b a e j) * cHalf + (∑ k : Fin 64, e k * P.Ws k j)

/-- Layer norm of a row `o` of 128 lanes: (o - μ) · rsqrt (σ² + ε) · g + s, with μ the mean and σ² the mean of the
    squared deviations, both by division by 128. -/
def layerNorm (o g s : Fin 128 → EReal) (j : Fin 128) : EReal :=
  (o j - Ideal.div (∑ k : Fin 128, o k) cLanes)
      * Ideal.rsqrt (Ideal.div (∑ k : Fin 128, (o k - Ideal.div (∑ k : Fin 128, o k) cLanes) * (o k - Ideal.div (∑ k : Fin 128, o k) cLanes)) cLanes + cEps)
      * g j + s j

/-- The block's result for one edge. -/
def rowOut (P : Params) (a b : Fin 128 → EReal) (e : Fin 64 → EReal) (j : Fin 128) : EReal :=
  layerNorm (pre P a b e) P.gamma P.beta j

/-! ## The weights as the two programs are given them -/

/-- The argument arrays' weights ([out, in] matrices, the node and combine matrices 256 wide) as the block's
    (input, output) matrices: a transpose, and for the 256-wide ones the two halves of the input axis. -/
def paramsOf (We : (⟨2, ![128, 64]⟩ : Shape).Idx → EReal) (be : (⟨1, ![128]⟩ : Shape).Idx → EReal)
    (Wn : (⟨2, ![128, 256]⟩ : Shape).Idx → EReal) (bn : (⟨1, ![128]⟩ : Shape).Idx → EReal)
    (Wc : (⟨2, ![128, 256]⟩ : Shape).Idx → EReal) (bc : (⟨1, ![128]⟩ : Shape).Idx → EReal)
    (Ws : (⟨2, ![128, 64]⟩ : Shape).Idx → EReal) (gamma beta : (⟨1, ![128]⟩ : Shape).Idx → EReal) : Params where
  We k j := We (ix2 j k)
  be j := be (ix1 j)
  Wn1 k j := Wn (ix2 j (⟨k.val, by omega⟩ : Fin 256))
  Wn2 k j := Wn (ix2 j (⟨128 + k.val, by omega⟩ : Fin 256))
  bn j := bn (ix1 j)
  Wc1 k j := Wc (ix2 j (⟨k.val, by omega⟩ : Fin 256))
  Wc2 k j := Wc (ix2 j (⟨128 + k.val, by omega⟩ : Fin 256))
  bc j := bc (ix1 j)
  Ws k j := Ws (ix2 j k)
  gamma j := gamma (ix1 j)
  beta j := beta (ix1 j)

/-! ## Which node row an index word names -/

/-- A negative index word counts from the end of the 50000 rows. -/
def wrapIdx (w : BitVec 32) : BitVec 32 :=
  Scalar.select (IntOp.cmpi .slt w 0#32) (IntOp.addi w 50000#32) w

/-- The node row a gather reads for the index word `w`: the wrapped word, read signed and clamped into the table. -/
def rowOf (w : BitVec 32) : Fin 50000 := ⟨min (wrapIdx w).toInt.toNat (50000 - 1), by omega⟩

/-! ## The whole result array -/

/-- Entry (e, j) of the result: the block applied to node rows `rowOf (EI[0, e])` and `rowOf (EI[1, e])` of `X` and to
    row `e` of the edge attributes. -/
def resultAt (X : (⟨2, ![50000, 128]⟩ : Shape).Idx → EReal) (EI : (⟨2, ![2, 400000]⟩ : Shape).Idx → BitVec 32)
    (EA : (⟨2, ![400000, 64]⟩ : Shape).Idx → EReal) (P : Params) (e : Fin 400000) (j : Fin 128) : EReal :=
  rowOut P (fun k => X (ix2 (rowOf (EI (ix2 (0 : Fin 2) e))) k)) (fun k => X (ix2 (rowOf (EI (ix2 (1 : Fin 2) e))) k))
    (fun k => EA (ix2 e k)) j

/-- The result as an array over the index type of a [400000, 128] tensor. -/
def result (X : (⟨2, ![50000, 128]⟩ : Shape).Idx → EReal) (EI : (⟨2, ![2, 400000]⟩ : Shape).Idx → BitVec 32)
    (EA : (⟨2, ![400000, 64]⟩ : Shape).Idx → EReal) (P : Params) : (⟨2, ![400000, 128]⟩ : Shape).Idx → EReal :=
  fun i => resultAt X EI EA P (i 0) (i 1)

/-! ## The one algebraic law -/

/-- A sum over 256 terms is the sum of its first 128 and its last 128. -/
theorem sum_split {M : Type*} [AddCommMonoid M] (f : Fin 256 → M) :
    ∑ k : Fin 256, f k = (∑ k : Fin 128, f ⟨k.val, by omega⟩) + (∑ k : Fin 128, f ⟨128 + k.val, by omega⟩) := by
  have h := Fin.sum_univ_add (a := 128) (b := 128) (fun i : Fin (128 + 128) => f ⟨i.val, by omega⟩)
  exact h

end Cert.EdgeMlp

end
-- ==== Proof.KernelArgs.lean ====
/-
  Names for the idealized kernel program's twelve argument arrays on one core, each at its literal tensor type, and
  the range condition on the index words: every entry of the [2, 400000] index array is a row number of the
  [50000, 128] node table, that is, it is at least 0 and below 50000 as a signed 32-bit word.
-/
import proofs.«417609_j9148280340719_1_alg».proof.Proof.Spec
import proofs.«417609_j9148280340719_1_alg».proof.Proof.Gen.KernelIdeal

noncomputable section

namespace Cert.EdgeMlp.KArgs

open Idealize.ShloMosaic Idealize.ShloMosaic.TcCoe Idealize.ShloMosaic.ValueIdx Idealize.SL.Sem
open Cert.KernelIdeal Cert.EdgeMlp

variable (m : (ℓ : Loc nD τ sig) → Buf (Elt Ideal) ℓ)

/-- The node table. -/
abbrev aX (c : Dev nD) : S50000x128.Idx → EReal := m ((c : Thread nD τ).loc main_arg0)
/-- The index words: row 0 the first endpoint of each edge, row 1 the second. -/
abbrev aEI (c : Dev nD) : S2x400000.Idx → BitVec 32 := m ((c : Thread nD τ).loc main_arg1)
/-- The edge attributes. -/
abbrev aEA (c : Dev nD) : S400000x64.Idx → EReal := m ((c : Thread nD τ).loc main_arg2)
abbrev aWe (c : Dev nD) : S128x64.Idx → EReal := m ((c : Thread nD τ).loc main_arg3)
abbrev aBe (c : Dev nD) : S128.Idx → EReal := m ((c : Thread nD τ).loc main_arg4)
abbrev aWn (c : Dev nD) : S128x256.Idx → EReal := m ((c : Thread nD τ).loc main_arg5)
abbrev aBn (c : Dev nD) : S128.Idx → EReal := m ((c : Thread nD τ).loc main_arg6)
abbrev aWc (c : Dev nD) : S128x256.Idx → EReal := m ((c : Thread nD τ).loc main_arg7)
abbrev aBc (c : Dev nD) : S128.Idx → EReal := m ((c : Thread nD τ).loc main_arg8)
abbrev aWs (c : Dev nD) : S128x64.Idx → EReal := m ((c : Thread nD τ).loc main_arg9)
abbrev aGamma (c : Dev nD) : S128.Idx → EReal := m ((c : Thread nD τ).loc main_arg10)
abbrev aBeta (c : Dev nD) : S128.Idx → EReal := m ((c : Thread nD τ).loc main_arg11)

/-- The block's weights read off the argument arrays. -/
abbrev aParams (c : Dev nD) : Params :=
  paramsOf (aWe m c) (aBe m c) (aWn m c) (aBn m c) (aWc m c) (aBc m c) (aWs m c) (aGamma m c) (aBeta m c)

/-- Every index word names a row of the node table: 0 ≤ w and w < 50000, compared as signed words. -/
def InRange (c : Dev nD) : Prop :=
  ∀ (s : Fin 2) (e : Fin 400000),
    IntOp.cmpi .sge (aEI m c (ix2 s e)) 0#32 = 1#1 ∧ IntOp.cmpi .slt (aEI m c (ix2 s e)) 50000#32 = 1#1

end Cert.EdgeMlp.KArgs

end
-- ==== Proof.KernelBlock.lean ====
/-
  What the kernel body stores, read at one element.

  The body holds one block of 3200 edges.  It forms the edge projection, the two first-layer node products, the two
  directions' combine layers averaged, and the layer norm of that average plus the skip product, and stores the result as
  one whole block.  Read at element (r, j): a product into a zero accumulator is the finite sum over its contraction
  coordinate; a [1, 128] row broadcast over the rows reads its row; a lane sum kept as a column and broadcast back reads
  the sum over row r; and narrowing to bf16 is the identity on the extended reals.  So the stored element is `rowOut` of
  row r of the three streamed blocks under the resident weights.
-/
import proofs.«417609_j9148280340719_1_alg».proof.Proof.Spec
import proofs.«417609_j9148280340719_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.EdgeMlp.KernelBlock

open Idealize.ShloMosaic Idealize.ShloMosaic.ValueIdx
open Cert.KernelIdeal Cert.KernelIdeal.Gen Cert.EdgeMlp

/-- The block's weights as the body finds them in its eleven resident weight blocks: already in (input, output)
    orientation, the bias and scale rows as [1, 128] blocks. -/
def blockParams (x3 : Vec Ideal S64x128 .f32) (x4 : Vec Ideal S1x128 .f32) (x5 x6 : Vec Ideal S128x128 .f32)
    (x7 : Vec Ideal S1x128 .f32) (x8 x9 : Vec Ideal S128x128 .f32) (x10 : Vec Ideal S1x128 .f32)
    (x11 : Vec Ideal S64x128 .f32) (x12 x13 : Vec Ideal S1x128 .f32) : Params where
  We k j := x3 (ix2 k j)
  be j := x4 (ix2 (0 : Fin 1) j)
  Wn1 k j := x5 (ix2 k j)
  Wn2 k j := x6 (ix2 k j)
  bn j := x7 (ix2 (0 : Fin 1) j)
  Wc1 k j := x8 (ix2 k j)
  Wc2 k j := x9 (ix2 k j)
  bc j := x10 (ix2 (0 : Fin 1) j)
  Ws k j := x11 (ix2 k j)
  gamma j := x12 (ix2 (0 : Fin 1) j)
  beta j := x13 (ix2 (0 : Fin 1) j)

/-! ## The two products read at an element -/

/-- Row axis of the left operand of the [3200, 64] × [64, 128] product: the output's row. -/
private theorem lhs64_0 (i : S3200x128.Idx) (q : dot_S3200x64_S64x128_S3200x128_1_0_0_1_n_n.contr.Idx) :
    (dot_S3200x64_S64x128_S3200x128_1_0_0_1_n_n.lhsIdx i q 0).val = (i 0).val := by
  unfold DotDims.lhsIdx
  rw [dif_neg (show ¬(0 : Fin S3200x64.rank) ∈ dot_S3200x64_S64x128_S3200x128_1_0_0_1_n_n.lhsBatch by decide),
    dif_pos (show (0 : Fin S3200x64.rank) ∈ dot_S3200x64_S64x128_S3200x128_1_0_0_1_n_n.lhsNonContracting by decide)]
  rfl
/-- Column axis of the left operand: the contraction coordinate. -/
private theorem lhs64_1 (i : S3200x128.Idx) (q : dot_S3200x64_S64x128_S3200x128_1_0_0_1_n_n.contr.Idx) :
    (dot_S3200x64_S64x128_S3200x128_1_0_0_1_n_n.lhsIdx i q 1).val = (q ⟨0, by decide⟩).val :=
  dot_S3200x64_S64x128_S3200x128_1_0_0_1_n_n.lhsIdx_val_of_single rfl i q
/-- Row axis of the right operand: the contraction coordinate. -/
private theorem rhs64_0 (i : S3200x128.Idx) (q : dot_S3200x64_S64x128_S3200x128_1_0_0_1_n_n.contr.Idx) :
    (dot_S3200x64_S64x128_S3200x128_1_0_0_1_n_n.rhsIdx i q 0).val = (q ⟨0, by decide⟩).val :=
  dot_S3200x64_S64x128_S3200x128_1_0_0_1_n_n.rhsIdx_val_of_single rfl i q
/-- Column axis of the right operand: the output's column. -/
private theorem rhs64_1 (i : S3200x128.Idx) (q : dot_S3200x64_S64x128_S3200x128_1_0_0_1_n_n.contr.Idx) :
    (dot_S3200x64_S64x128_S3200x128_1_0_0_1_n_n.rhsIdx i q 1).val = (i 1).val := by
  unfold DotDims.rhsIdx
  rw [dif_neg (show ¬(1 : Fin S64x128.rank) ∈ dot_S3200x64_S64x128_S3200x128_1_0_0_1_n_n.rhsBatch by decide),
    dif_pos (show (1 : Fin S64x128.rank) ∈ dot_S3200x64_S64x128_S3200x128_1_0_0_1_n_n.rhsNonContracting by decide)]
  rfl

/-- The [3200, 64] × [64, 128] product into a zero accumulator, at (r, j): the sum over the 64 contraction
    coordinates of left (r, k) times right (k, j). -/
private theorem matmul64_apply {φ₁ φ₂ : FTy} (a : FVec Ideal S3200x64 φ₁) (b : FVec Ideal S64x128 φ₂) (r : Fin 3200) (j : Fin 128) :
    matmul dot_S3200x64_S64x128_S3200x128_1_0_0_1_n_n none a b (constant (F := Ideal) S3200x128 .f32 0x00000000#32) (ix2 r j)
      = ∑ k : Fin 64, a (ix2 r k) * b (ix2 k j) := by
  refine (Ideal.matmul_constant_zero_apply dot_S3200x64_S64x128_S3200x128_1_0_0_1_n_n none a b (ix2 r j)).trans ?_
  rw [← Equiv.sum_comp (contrEquiv1 dot_S3200x64_S64x128_S3200x128_1_0_0_1_n_n 64 rfl rfl).symm]
  refine Finset.sum_congr rfl fun k _ => ?_
  have hk := contrEquiv1_symm_val dot_S3200x64_S64x128_S3200x128_1_0_0_1_n_n 64 rfl rfl k
  have el : dot_S3200x64_S64x128_S3200x128_1_0_0_1_n_n.lhsIdx (ix2 r j) ((contrEquiv1 dot_S3200x64_S64x128_S3200x128_1_0_0_1_n_n 64 rfl rfl).symm k) = ix2 r k := funext fun c => Fin.ext (by
    match c with
    | ⟨0, _⟩ => exact lhs64_0 _ _
    | ⟨1, _⟩ => exact (lhs64_1 _ _).trans hk)
  have er : dot_S3200x64_S64x128_S3200x128_1_0_0_1_n_n.rhsIdx (ix2 r j) ((contrEquiv1 dot_S3200x64_S64x128_S3200x128_1_0_0_1_n_n 64 rfl rfl).symm k) = ix2 k j := funext fun c => Fin.ext (by
    match c with
    | ⟨0, _⟩ => exact (rhs64_0 _ _).trans hk
    | ⟨1, _⟩ => exact rhs64_1 _ _)
  rw [el, er]

/-- Row axis of the left operand of the [3200, 128] × [128, 128] product: the output's row. -/
private theorem lhs128_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide),
    dif_pos (show (0 : Fin S3200x128.rank) ∈ dot_S3200x128_S128x128_S3200x128_1_0_0_1_n_n.lhsNonContracting by decide)]
  rfl
/-- Column axis of the left operand: the contraction coordinate. -/
private theorem lhs128_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
/-- Row axis of the right operand: the contraction coordinate. -/
private theorem rhs128_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
/-- Column axis of the right operand: the output's column. -/
private theorem rhs128_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide),
    dif_pos (show (1 : Fin S128x128.rank) ∈ dot_S3200x128_S128x128_S3200x128_1_0_0_1_n_n.rhsNonContracting by decide)]
  rfl

/-- The [3200, 128] × [128, 128] product into a zero accumulator, at (r, j): the sum over the 128 contraction
    coordinates of left (r, k) times right (k, j). -/
private theorem matmul128_apply {φ₁ φ₂ : FTy} (a : FVec Ideal S3200x128 φ₁) (b : FVec Ideal S128x128 φ₂) (r : Fin 3200) (j : Fin 128) :
    matmul dot_S3200x128_S128x128_S3200x128_1_0_0_1_n_n none a b (constant (F := Ideal) S3200x128 .f32 0x00000000#32) (ix2 r j)
      = ∑ k : Fin 128, a (ix2 r k) * b (ix2 k j) := by
  refine (Ideal.matmul_constant_zero_apply dot_S3200x128_S128x128_S3200x128_1_0_0_1_n_n none a b (ix2 r j)).trans ?_
  rw [← Equiv.sum_comp (contrEquiv1 dot_S3200x128_S128x128_S3200x128_1_0_0_1_n_n 128 rfl rfl).symm]
  refine Finset.sum_congr rfl fun k _ => ?_
  have hk := contrEquiv1_symm_val dot_S3200x128_S128x128_S3200x128_1_0_0_1_n_n 128 rfl rfl k
  have el : dot_S3200x128_S128x128_S3200x128_1_0_0_1_n_n.lhsIdx (ix2 r j) ((contrEquiv1 dot_S3200x128_S128x128_S3200x128_1_0_0_1_n_n 128 rfl rfl).symm k) = ix2 r k := funext fun c => Fin.ext (by
    match c with
    | ⟨0, _⟩ => exact lhs128_0 _ _
    | ⟨1, _⟩ => exact (lhs128_1 _ _).trans hk)
  have er : dot_S3200x128_S128x128_S3200x128_1_0_0_1_n_n.rhsIdx (ix2 r j) ((contrEquiv1 dot_S3200x128_S128x128_S3200x128_1_0_0_1_n_n 128 rfl rfl).symm k) = ix2 k j := funext fun c => Fin.ext (by
    match c with
    | ⟨0, _⟩ => exact (rhs128_0 _ _).trans hk
    | ⟨1, _⟩ => exact rhs128_1 _ _)
  rw [el, er]

/-! ## The layout operations read at an element -/

/-- A [1, 128] row broadcast over the 3200 rows reads, at (r, j), the row at j. -/
private theorem rowBcast_apply (v : FVec Ideal S1x128 .f32) (r : Fin 3200) (j : Fin 128) :
    broadcastTo S3200x128 v broadcasts_S1x128_S3200x128 (ix2 r j) = v (ix2 (0 : Fin 1) j) :=
  broadcastTo_1b_ab_apply v broadcasts_S1x128_S3200x128 r j

/-- A [3200] vector cast to a [3200, 1] column reads, at (r, 0), the vector at r. -/
private theorem colCast_apply (v : FVec Ideal S3200 .f32) (r : Fin 3200) (u : Fin 1) :
    shapeCast S3200x1 v shapeCasts_S3200_S3200x1 (ix2 r u) = v (ix1 r) :=
  shapeCast_apply v shapeCasts_S3200_S3200x1 _ _ (by
    have hu : u.val = 0 := by omega
    rw [Shape.rowMajor_val_two, Shape.rowMajor_val_one]
    show r.val = r.val * 1 + u.val
    rw [hu, Nat.mul_one, Nat.add_zero])

/-- A [3200, 1] column broadcast over the 128 lanes reads, at (r, j), the column at r. -/
private theorem colBcast_apply (w : FVec Ideal S3200x1 .f32) (r : Fin 3200) (j : Fin 128) :
    broadcastTo S3200x128 w broadcasts_S3200x1_S3200x128 (ix2 r j) = w (ix2 r (0 : Fin 1)) := by
  refine broadcastTo_apply w broadcasts_S3200x1_S3200x128 (ix2 r j) (ix2 r (0 : Fin 1)) fun ax => ?_
  match ax with
  | ⟨0, _⟩ => rfl
  | ⟨1, _⟩ => rfl

/-- The sum over the 128 lanes of a [3200, 128] block, from a zero accumulator, reads at r the sum of row r. -/
private theorem laneSum_apply (v : FVec Ideal S3200x128 .f32) (hφ : FTy.f32 = FTy.f32 ∨ FTy.f32 = FTy.bf16)
    (hacc : (0x00000000#32 : BitVec 32) = 0x00000000#32) (r : Fin 3200) :
    multiReduction (F := Ideal) (s := S3200x128) .add ([1] : List (Fin 2)) S3200 v 0x00000000#32 reduces_S3200x128_S3200 hφ hacc (ix1 r)
      = ∑ k : Fin 128, v (ix2 r k) := by
  refine (Ideal.multiReduction_add_single v _ reduces_S3200x128_S3200 hφ hacc (ix1 r)).trans ?_
  refine Finset.sum_congr rfl fun k _ => congrArg v ?_
  funext c
  match c with
  | ⟨0, _⟩ => rfl
  | ⟨1, _⟩ => rfl

/-! ## The payload stages read at an element -/

/-- The reciprocal square root of a vector at an element is that of the element. -/
private theorem rsqrt_apply {s : Shape} {φ : FTy} (a : FVec Ideal s φ) (i : s.Idx) : rsqrt a i = Ideal.rsqrt (a i) := rfl

/-- The edge projection stage at (r, j): relu of row r of the edge block times the edge weights plus the edge bias. -/
private theorem pay10_apply (x2 : Vec Ideal S3200x64 .f32) (x3 : Vec Ideal S64x128 .f32) (x4 : Vec Ideal S1x128 .f32)
    (r : Fin 3200) (j : Fin 128) :
    k0_pay10 (F := Ideal) x2 x3 x4 (ix2 r j)
      = max ((∑ k : Fin 64, x2 (ix2 r k) * x3 (ix2 k j)) + x4 (ix2 (0 : Fin 1) j)) cZero := by
  unfold k0_pay10 k0_pay4
  simp only [maximumf_apply, addf_apply, matmul64_apply, truncf_apply, shapeCast_self, rowBcast_apply, broadcast_apply]
  rfl

/-- The first node product at (r, j): row r of the first node block times the first half of the node weights. -/
private theorem pay11_apply (x0 : Vec Ideal S3200x128 .f32) (x5 : Vec Ideal S128x128 .f32) (r : Fin 3200) (j : Fin 128) :
    k0_pay11 (F := Ideal) x0 x5 (ix2 r j) = ∑ k : Fin 128, x0 (ix2 r k) * x5 (ix2 k j) := by
  unfold k0_pay11 k0_pay2 k0_pay5
  simp only [matmul128_apply, truncf_apply, shapeCast_self]

/-- The second node product at (r, j): row r of the second node block times the second half of the node weights. -/
private theorem pay12_apply (x1 : Vec Ideal S3200x128 .f32) (x6 : Vec Ideal S128x128 .f32) (r : Fin 3200) (j : Fin 128) :
    k0_pay12 (F := Ideal) x1 x6 (ix2 r j) = ∑ k : Fin 128, x1 (ix2 r k) * x6 (ix2 k j) := by
  unfold k0_pay12 k0_pay3 k0_pay6
  simp only [matmul128_apply, truncf_apply, shapeCast_self]

/-- The averaging stage at (r, j), over whatever operands it is given: the two directions' combine layers, each the relu
    of (node projection · first combine weights + edge projection · second combine weights + bias), added and halved.  The
    forward node projection is the relu of the two given first-layer products plus bias; the backward one forms its own
    two products from the swapped node rows. -/
private theorem pay13_apply (v2 v5 : FVec Ideal S3200x128 .bf16) (v13 v16 v19 v22 : FVec Ideal S128x128 .bf16)
    (v32 v33 v34 : FVec Ideal S3200x128 .f32) (v36 v45 v57 v66 : Vec Ideal S1x128 .f32) (r : Fin 3200) (j : Fin 128) :
    k0_pay13 (F := Ideal) v2 v5 v13 v16 v19 v22 v32 v33 v34 v36 v45 v57 v66 (ix2 r j)
      = (max (((∑ k : Fin 128, max ((v33 (ix2 r k) + v34 (ix2 r k)) + v36 (ix2 (0 : Fin 1) k)) cZero * v19 (ix2 k j))
                + (∑ k : Fin 128, v32 (ix2 r k) * v22 (ix2 k j))) + v57 (ix2 (0 : Fin 1) j)) cZero
          + max (((∑ k : Fin 128, max (((∑ m : Fin 128, v5 (ix2 r m) * v13 (ix2 m k))
                      + (∑ m : Fin 128, v2 (ix2 r m) * v16 (ix2 m k))) + v45 (ix2 (0 : Fin 1) k)) cZero * v19 (ix2 k j))
                + (∑ k : Fin 128, v32 (ix2 r k) * v22 (ix2 k j))) + v66 (ix2 (0 : Fin 1) j)) cZero) * cHalf := by
  unfold k0_pay13
  simp only [mulf_apply, maximumf_apply, addf_apply, matmul128_apply, truncf_apply, shapeCast_self, rowBcast_apply,
    broadcast_apply]
  rfl

/-- The last stage at (r, j), over whatever operands it is given: the layer norm, over the 128 lanes of row r, of the given
    block plus the skip product, scaled and shifted by the two given rows. -/
private theorem pay1_apply (v7 : FVec Ideal S3200x64 .bf16) (v25 : FVec Ideal S64x128 .bf16) (v74 : FVec Ideal S3200x128 .f32)
    (v95 v99 : Vec Ideal S1x128 .f32) (r : Fin 3200) (j : Fin 128) :
    k0_pay1 (F := Ideal) v7 v25 v74 (constant (F := Ideal) S3200x128 .f32 0x00000000#32) v95 v99 (ix2 r j)
      = layerNorm (fun k => v74 (ix2 r k) + ∑ m : Fin 64, v7 (ix2 r m) * v25 (ix2 m k))
          (fun k => v95 (ix2 (0 : Fin 1) k)) (fun k => v99 (ix2 (0 : Fin 1) k)) j := by
  unfold k0_pay1
  simp only [addf_apply, mulf_apply, subf_apply, divf_apply, rsqrt_apply, colBcast_apply, colCast_apply, laneSum_apply,
    rowBcast_apply, broadcast_apply, shapeCast_self, matmul64_apply]
  rfl

/-! ## The body's stored block read at an element -/

/-- The averaging stage on the body's own operands, at (r, j): the two directions of the edge, added and halved. -/
private theorem avg_apply (x0 x1 : Vec Ideal S3200x128 .f32) (x2 : Vec Ideal S3200x64 .f32) (x3 : Vec Ideal S64x128 .f32)
    (x4 : Vec Ideal S1x128 .f32) (x5 x6 : Vec Ideal S128x128 .f32) (x7 : Vec Ideal S1x128 .f32)
    (x8 x9 : Vec Ideal S128x128 .f32) (x10 : Vec Ideal S1x128 .f32) (x11 : Vec Ideal S64x128 .f32)
    (x12 x13 : Vec Ideal S1x128 .f32) (r : Fin 3200) (j : Fin 128) :
    k0_pay13 (F := Ideal) (k0_pay2 x0) (k0_pay3 x1) (k0_pay5 x5) (k0_pay6 x6) (k0_pay7 x8) (k0_pay8 x9)
        (k0_pay10 x2 x3 x4) (k0_pay11 x0 x5) (k0_pay12 x1 x6) x7 x7 x10 x10 (ix2 r j)
      = (comb (blockParams x3 x4 x5 x6 x7 x8 x9 x10 x11 x12 x13)
            (fun k => x0 (ix2 r k)) (fun k => x1 (ix2 r k)) (fun k => x2 (ix2 r k)) j
          + comb (blockParams x3 x4 x5 x6 x7 x8 x9 x10 x11 x12 x13)
            (fun k => x1 (ix2 r k)) (fun k => x0 (ix2 r k)) (fun k => x2 (ix2 r k)) j) * cHalf := by
  refine (pay13_apply _ _ _ _ _ _ _ _ _ _ _ _ _ r j).trans ?_
  simp only [pay10_apply, pay11_apply, pay12_apply, k0_pay2, k0_pay3, k0_pay5, k0_pay6, k0_pay7, k0_pay8, truncf_apply,
    shapeCast_self]
  unfold comb pn pe relu blockParams
  rfl

/-- Element (r, j) of the output block the body leaves is the block function of row r of the three streamed input
    blocks and of the resident weights. -/
theorem out_apply (x0 x1 : Vec Ideal S3200x128 .f32) (x2 : Vec Ideal S3200x64 .f32) (x3 : Vec Ideal S64x128 .f32)
    (x4 : Vec Ideal S1x128 .f32) (x5 x6 : Vec Ideal S128x128 .f32) (x7 : Vec Ideal S1x128 .f32)
    (x8 x9 : Vec Ideal S128x128 .f32) (x10 : Vec Ideal S1x128 .f32) (x11 : Vec Ideal S64x128 .f32)
    (x12 x13 : Vec Ideal S1x128 .f32) (r : Fin 3200) (j : Fin 128) :
    out0_14 (F := Ideal) x0 x1 x2 x3 x4 x5 x6 x7 x8 x9 x10 x11 x12 x13 (ix2 r j)
      = rowOut (blockParams x3 x4 x5 x6 x7 x8 x9 x10 x11 x12 x13)
          (fun k => x0 (ix2 r k)) (fun k => x1 (ix2 r k)) (fun k => x2 (ix2 r k)) j := by
  have hz : (![0, 0] : Fin 2 → Nat) = fun _ => 0 := funext fun a => by
    match a with
    | ⟨0, _⟩ => rfl
    | ⟨1, _⟩ => rfl
  unfold out0_14
  rw [View.canon_unit_zero hz]
  simp only [View.ld_unit_zero (S := S3200x128) hz, View.ld_unit_zero (S := S3200x64) hz,
    View.ld_unit_zero (S := S64x128) hz, View.ld_unit_zero (S := S128x128) hz, View.ld_unit_zero (S := S1x128) hz]
  refine (pay1_apply _ _ _ _ _ r j).trans ?_
  simp only [avg_apply x0 x1 x2 x3 x4 x5 x6 x7 x8 x9 x10 x11 x12 x13, k0_pay4, k0_pay9, truncf_apply, shapeCast_self]
  rfl

end Cert.EdgeMlp.KernelBlock

end
-- ==== Proof.KernelIndex.lean ====
/-
  The kernel's index maps over its grid of 125 points, decided once: the three streamed inputs (the two gathered
  node-row arrays and the edge attributes) and the output are at row block t at point t; every weight window stays at
  block (0, 0).
-/
import proofs.«417609_j9148280340719_1_alg».proof.Proof.Gen.KernelIdeal.Launch

noncomputable section

namespace Cert.EdgeMlp.KernelArray

open Idealize.ShloMosaic Idealize.ShloMosaic.TcCoe Idealize.SL.Sem
open Cert.KernelIdeal Cert.KernelIdeal.Gen

/-- The printed index maps, decided over the 125 grid points: the three streamed inputs and the output are at row
    block t, every weight window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = t.val ∧ win0_14.index t (1 : Fin 2) = 0) :=
  (by decide +kernel : ∀ t : Fin grid0.N, _)

theorem t_lt (t : Fin cfg0.N) : t.val < 125 := by
  have h := t.isLt
  have hN : cfg0.N = 125 := N_0
  omega

end Cert.EdgeMlp.KernelArray

end
-- ==== Proof.KernelArray.lean ====
/-
  From the kernel's blocks to its result array.  Grid point t works on rows 3200·t … 3200·t + 3199: it is handed
  those rows of the two gathered node-row arrays and of the edge attributes, and every weight array whole, and it
  writes those rows of the result.  So each block it writes back is a block of ONE function of the arrays the region
  was launched on, `launched`, and since the 125 blocks tile the 400000 rows the result array ends as that function.
-/
import proofs.«417609_j9148280340719_1_alg».proof.Proof.Spec
import proofs.«417609_j9148280340719_1_alg».proof.Proof.KernelBlock
import proofs.«417609_j9148280340719_1_alg».proof.Proof.KernelIndex
import proofs.«417609_j9148280340719_1_alg».proof.Proof.Gen.KernelIdeal.Value
import Idealize.ShloMosaic.Lib.Pipeline.Value

noncomputable section

namespace Cert.EdgeMlp.KernelArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.EdgeMlp Cert.EdgeMlp.KernelBlock

variable (m : (ℓ : Loc nD τ sig) → Buf (Elt Ideal) ℓ) (ρ : Dev nD → PrngReg)

/-- The weights the region is launched on. -/
def launchedParams (c : Dev nD) : Params :=
  blockParams (V m c main_v14) (V m c main_v16) (V m c main_v7) (V m c main_v9) (V m c main_v17) (V m c main_v11)
    (V m c main_v13) (V m c main_v18) (V m c main_v15) (V m c main_v19) (V m c main_v20)

/-- The result as a function of the arrays the region is launched on: at (e, j) the block applied to row e of the two
    gathered arrays and of the edge attributes. -/
def launched (c : Dev nD) : S400000x128.Idx → EReal := fun i =>
  rowOut (launchedParams m c)
    (fun k => (V m c main_v4 : S400000x128.Idx → EReal) (ix2 (i 0) k))
    (fun k => (V m c main_v5 : S400000x128.Idx → EReal) (ix2 (i 0) k))
    (fun k => (V m c main_arg2 : S400000x64.Idx → EReal) (ix2 (i 0) k)) (i 1)

/-- Two parameter records built from equal weight blocks are equal. -/
theorem blockParams_congr {x3 x3' : Vec Ideal S64x128 .f32} {x4 x4' : Vec Ideal S1x128 .f32} {x5 x5' x6 x6' : Vec Ideal S128x128 .f32}
    {x7 x7' : Vec Ideal S1x128 .f32} {x8 x8' x9 x9' : Vec Ideal S128x128 .f32} {x10 x10' : Vec Ideal S1x128 .f32}
    {x11 x11' : Vec Ideal S64x128 .f32} {x12 x12' x13 x13' : Vec Ideal S1x128 .f32}
    (h3 : x3 = x3') (h4 : x4 = x4') (h5 : x5 = x5') (h6 : x6 = x6') (h7 : x7 = x7') (h8 : x8 = x8') (h9 : x9 = x9')
    (h10 : x10 = x10') (h11 : x11 = x11') (h12 : x12 = x12') (h13 : x13 = x13') :
    blockParams x3 x4 x5 x6 x7 x8 x9 x10 x11 x12 x13 = blockParams x3' x4' x5' x6' x7' x8' x9' x10' x11' x12' x13' := by
  subst h3 h4 h5 h6 h7 h8 h9 h10 h11 h12 h13; rfl

/-- The block function at equal weights and equal rows. -/
theorem rowOut_congr {P P' : Params} {a a' b b' : Fin 128 → EReal} {e e' : Fin 64 → EReal}
    (hP : P = P') (ha : a = a') (hb : b = b') (he : e = e') (j : Fin 128) :
    rowOut P a b e j = rowOut P' a' b' e' j := by
  subst hP ha hb he; rfl

/-- A streamed window's block: element (r, k) of the block at point t is element (3200·t + r, k) of its array. -/
theorem iblk0_apply (c : Dev nD) (t : Fin cfg0.N) (r : Fin 3200) (k : Fin 128) :
    (iblk m c 0 t : Vec Ideal S3200x128 .f32) (ix2 r k)
      = (V m c main_v4 : S400000x128.Idx → EReal) (ix2 (⟨t.val * 3200 + r.val, by have := t_lt t; omega⟩ : Fin 400000) k) := by
  obtain ⟨⟨e0, e1⟩, -⟩ := idx_facts t
  unfold iblk
  rw [View.read_apply]
  show V m c main_v4 _ = V m c main_v4 _
  congr 1
  funext a
  apply Fin.ext
  match a with
  | ⟨0, _⟩ => show win0_0.index t (0 : Fin 2) * 3200 + 1 * r.val = t.val * 3200 + r.val; rw [e0]; omega
  | ⟨1, _⟩ => show win0_0.index t (1 : Fin 2) * 128 + 1 * k.val = k.val; rw [e1]; omega

theorem iblk1_apply (c : Dev nD) (t : Fin cfg0.N) (r : Fin 3200) (k : Fin 128) :
    (iblk m c 1 t : Vec Ideal S3200x128 .f32) (ix2 r k)
      = (V m c main_v5 : S400000x128.Idx → EReal) (ix2 (⟨t.val * 3200 + r.val, by have := t_lt t; omega⟩ : Fin 400000) k) := by
  obtain ⟨-, ⟨e0, e1⟩, -⟩ := idx_facts t
  unfold iblk
  rw [View.read_apply]
  show V m c main_v5 _ = V m c main_v5 _
  congr 1
  funext a
  apply Fin.ext
  match a with
  | ⟨0, _⟩ => show win0_1.index t (0 : Fin 2) * 3200 + 1 * r.val = t.val * 3200 + r.val; rw [e0]; omega
  | ⟨1, _⟩ => show win0_1.index t (1 : Fin 2) * 128 + 1 * k.val = k.val; rw [e1]; omega

theorem iblk2_apply (c : Dev nD) (t : Fin cfg0.N) (r : Fin 3200) (k : Fin 64) :
    (iblk m c 2 t : Vec Ideal S3200x64 .f32) (ix2 r k)
      = (V m c main_arg2 : S400000x64.Idx → EReal) (ix2 (⟨t.val * 3200 + r.val, by have := t_lt t; omega⟩ : Fin 400000) k) := by
  obtain ⟨-, -, ⟨e0, e1⟩, -⟩ := idx_facts t
  unfold iblk
  rw [View.read_apply]
  show V m c main_arg2 _ = V m c main_arg2 _
  congr 1
  funext a
  apply Fin.ext
  match a with
  | ⟨0, _⟩ => show win0_2.index t (0 : Fin 2) * 3200 + 1 * r.val = t.val * 3200 + r.val; rw [e0]; omega
  | ⟨1, _⟩ => show win0_2.index t (1 : Fin 2) * 64 + 1 * k.val = k.val; rw [e1]; omega

/-! A resident weight window sits at block (0, 0) at every point and its block has the size of its array, so an element
    of the block sits at the same index of the array: the block IS the array.  The argument is the same for the eleven
    weight windows and is written once, as a local tactic taking the window, its array, the block's two extents and
    the window's two index facts. -/

set_option hygiene false in
/-- `whole_block W, A, s0, s1, h`: the block of window `W` (array `A`, extents `s0 × s1`, index facts
    `h : index t 0 = 0 ∧ index t 1 = 0`) at point `t` is the array: an element's array coordinate on each axis is
    block index · extent + its own coordinate, and the block index is 0. -/
local macro "whole_block " W:term ", " A:term ", " s0:num ", " s1:num ", " h:term : tactic => `(tactic| (
  funext y
  unfold iblk
  rw [View.read_apply]
  show V m c $A _ = V m c $A _
  congr 1
  funext a
  apply Fin.ext
  match a with
  | ⟨0, _⟩ => show ($W).index t (0 : Fin 2) * $s0 + 1 * (y 0).val = (y 0).val; rw [($h).1]; omega
  | ⟨1, _⟩ => show ($W).index t (1 : Fin 2) * $s1 + 1 * (y 1).val = (y 1).val; rw [($h).2]; omega))

theorem iblk3_eq (c : Dev nD) (t : Fin cfg0.N) : (iblk m c 3 t : Vec Ideal S64x128 .f32) = V m c main_v14 := by
  whole_block win0_3, main_v14, 64, 128, (idx_facts t).2.2.2.1
theorem iblk4_eq (c : Dev nD) (t : Fin cfg0.N) : (iblk m c 4 t : Vec Ideal S1x128 .f32) = V m c main_v16 := by
  whole_block win0_4, main_v16, 1, 128, (idx_facts t).2.2.2.2.1
theorem iblk5_eq (c : Dev nD) (t : Fin cfg0.N) : (iblk m c 5 t : Vec Ideal S128x128 .f32) = V m c main_v7 := by
  whole_block win0_5, main_v7, 128, 128, (idx_facts t).2.2.2.2.2.1
theorem iblk6_eq (c : Dev nD) (t : Fin cfg0.N) : (iblk m c 6 t : Vec Ideal S128x128 .f32) = V m c main_v9 := by
  whole_block win0_6, main_v9, 128, 128, (idx_facts t).2.2.2.2.2.2.1
theorem iblk7_eq (c : Dev nD) (t : Fin cfg0.N) : (iblk m c 7 t : Vec Ideal S1x128 .f32) = V m c main_v17 := by
  whole_block win0_7, main_v17, 1, 128, (idx_facts t).2.2.2.2.2.2.2.1
theorem iblk8_eq (c : Dev nD) (t : Fin cfg0.N) : (iblk m c 8 t : Vec Ideal S128x128 .f32) = V m c main_v11 := by
  whole_block win0_8, main_v11, 128, 128, (idx_facts t).2.2.2.2.2.2.2.2.1
theorem iblk9_eq (c : Dev nD) (t : Fin cfg0.N) : (iblk m c 9 t : Vec Ideal S128x128 .f32) = V m c main_v13 := by
  whole_block win0_9, main_v13, 128, 128, (idx_facts t).2.2.2.2.2.2.2.2.2.1
theorem iblk10_eq (c : Dev nD) (t : Fin cfg0.N) : (iblk m c 10 t : Vec Ideal S1x128 .f32) = V m c main_v18 := by
  whole_block win0_10, main_v18, 1, 128, (idx_facts t).2.2.2.2.2.2.2.2.2.2.1
theorem iblk11_eq (c : Dev nD) (t : Fin cfg0.N) : (iblk m c 11 t : Vec Ideal S64x128 .f32) = V m c main_v15 := by
  whole_block win0_11, main_v15, 64, 128, (idx_facts t).2.2.2.2.2.2.2.2.2.2.2.1
theorem iblk12_eq (c : Dev nD) (t : Fin cfg0.N) : (iblk m c 12 t : Vec Ideal S1x128 .f32) = V m c main_v19 := by
  whole_block win0_12, main_v19, 1, 128, (idx_facts t).2.2.2.2.2.2.2.2.2.2.2.2.1
theorem iblk13_eq (c : Dev nD) (t : Fin cfg0.N) : (iblk m c 13 t : Vec Ideal S1x128 .f32) = V m c main_v20 := by
  whole_block win0_13, main_v20, 1, 128, (idx_facts t).2.2.2.2.2.2.2.2.2.2.2.2.2.1

/-- Element (r, j) of the output block at point t sits at (3200·t + r, j) of the result array. -/
theorem emb14 (t : Fin cfg0.N) (r : Fin 3200) (j : Fin 128) :
    ((cfg0.win 14).blk t).view.emb (ix2 r j)
      = (ix2 (⟨t.val * 3200 + r.val, by have := t_lt t; omega⟩ : Fin 400000) j : S400000x128.Idx) := by
  have e0 := (idx_facts t).2.2.2.2.2.2.2.2.2.2.2.2.2.2.1
  have e1 := (idx_facts t).2.2.2.2.2.2.2.2.2.2.2.2.2.2.2
  funext a
  apply Fin.ext
  match a with
  | ⟨0, _⟩ => show win0_14.index t (0 : Fin 2) * 3200 + 1 * r.val = t.val * 3200 + r.val; rw [e0]; omega
  | ⟨1, _⟩ => show win0_14.index t (1 : Fin 2) * 128 + 1 * j.val = j.val; rw [e1]; omega

/-- WHAT POINT t WRITES BACK is block t of `launched`. -/
theorem flushed_eq (c : Dev nD) (t : Fin cfg0.N) :
    (dats m 0 c).flushed 14 t = ((cfg0.win 14).blk t).view.read (Elt Ideal) (launched m c) := by
  rw [Value.flushed14]
  funext y
  obtain ⟨r, j, rfl⟩ : ∃ (r : Fin 3200) (j : Fin 128), y = ix2 r j := ⟨y 0, y 1, eq_ix2 y⟩
  rw [View.read_apply]
  refine Eq.trans ?_ (congrArg (launched m c) (emb14 t r j).symm)
  refine (KernelBlock.out_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) r j).trans ?_
  show rowOut _ _ _ _ j = rowOut (launchedParams m c) _ _ _ j
  exact rowOut_congr
    (blockParams_congr (iblk3_eq m c t) (iblk4_eq m c t) (iblk5_eq m c t) (iblk6_eq m c t) (iblk7_eq m c t)
      (iblk8_eq m c t) (iblk9_eq m c t) (iblk10_eq m c t) (iblk11_eq m c t) (iblk12_eq m c t) (iblk13_eq m c t))
    (funext fun k => iblk0_apply m c t r k) (funext fun k => iblk1_apply m c t r k)
    (funext fun k => iblk2_apply m c t r k) j

/-- An index of the result array is in point t's block iff its row is among rows 3200·t … 3200·t + 3199. -/
theorem mem_blk (t : Fin cfg0.N) (i : S400000x128.Idx) :
    i ∈ ((cfg0.win 14).blk t).view.set ↔ ∀ a : Fin 2, win0_14.index t a * S3200x128.size a ≤ (i a).val
      ∧ (i a).val < win0_14.index t a * S3200x128.size a + S3200x128.size a := by
  show i ∈ ((View.whole main_v21).slice (win0_14.rect t)).set ↔ _
  rw [View.set_slice_whole, Rect.mem_set_unit]
  exact Iff.rfl

/-- The 125 blocks tile the 400000 rows: row e is in the block of point e / 3200. -/
theorem cover (i : S400000x128.Idx) :
    ∃ t : Fin cfg0.N, (cfg0.win 14).flush t = true ∧ i ∈ ((cfg0.win 14).blk t).view.set := by
  have hi0 : (i 0).val < 400000 := (i 0).isLt
  have hi1 : (i 1).val < 128 := (i 1).isLt
  have hN : cfg0.N = 125 := N_0
  have ht : (i 0).val / 3200 < cfg0.N := by omega
  have e0 := (idx_facts ⟨(i 0).val / 3200, ht⟩).2.2.2.2.2.2.2.2.2.2.2.2.2.2.1
  have e1 := (idx_facts ⟨(i 0).val / 3200, ht⟩).2.2.2.2.2.2.2.2.2.2.2.2.2.2.2
  refine ⟨⟨(i 0).val / 3200, ht⟩, flush0_14 _, ?_⟩
  rw [mem_blk]
  intro a
  match a with
  | ⟨0, _⟩ =>
    show win0_14.index ⟨(i 0).val / 3200, ht⟩ (0 : Fin 2) * 3200 ≤ (i 0).val
      ∧ (i 0).val < win0_14.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_14.index ⟨(i 0).val / 3200, ht⟩ (1 : Fin 2) * 128 ≤ (i 1).val
      ∧ (i 1).val < win0_14.index ⟨(i 0).val / 3200, ht⟩ (1 : Fin 2) * 128 + 128
    rw [e1]; omega

/-- So the result array ends as `launched`. -/
theorem final_launched (c : Dev nD) : (dats m 0 c).arrAt 14 cfg0.N = launched m c :=
  (dats m 0 c).arrAt_eq_of_cover 14 (launched m c) (fun t _ => flushed_eq m c t) cover

end Cert.EdgeMlp.KernelArray

end
-- ==== Proof.LibRowGather.lean ====
/-
  A general lemma: a gather that takes whole rows of a rank-2 table by a column of start indices (the row take
  `x[idx]` over a matrix) reads, at result position (p, q), the table at row "start index p, read signed and clamped
  into the table" and column q.  On the collapsed axis the operand coordinate is the clamped start alone (the
  slice there has size one, so the clamp is to [0, N - 1]); on the kept axis the start is zero and the coordinate is the
  result's coordinate on its one offset axis.
-/
import Idealize.ShloMosaic.PureOps.ShapeOps
import Idealize.ShloMosaic.Lib.ValueIdx
import Idealize.ShloMosaic.Lib.StableHlo.Predicate

namespace Idealize.ShloMosaic.RowGather

open Idealize.ShloMosaic Idealize.ShloMosaic.ValueIdx

/-- THE ROW TAKE.  Operand [N, C], start indices an [n, 1] column, result [n, C]; operand axis 0 collapsed and
    start-indexed, axis 1 an offset axis of full width C carried to result axis 1, no batching axes, the index vector on
    axis 1 of the start indices (the hypotheses are the printed dimension numbers, each true by `rfl` of the printed
    record).  Result element (p, q) is the table's element (row, q) with `row` the p-th start index read signed and
    clamped to `[0, N - 1]`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hsl : d.sliceSizes = ![1, C])
    (x : (⟨2, ![N, C]⟩ : Shape).Idx → α) (idx : IVec ⟨2, ![n, 1]⟩ w) (p : Fin n) (q : Fin C) (hN : 0 < N) :
    Host.gather d x idx (ix2 p q)
      = x (ix2 (⟨min (idx (ix2 p (0 : Fin 1))).toInt.toNat (N - 1), by omega⟩ : Fin N) q) := by
  -- no operand axis is a batching axis
  have hb : ∀ a : Fin 2, a ∉ d.operandBatchingDims := fun a => by rw [hob]; exact List.not_mem_nil
  -- the result's one batch axis is axis 0 (the axes that are not offset axes) ...
  have hbd : ∀ X : Fin 2, X ∈ d.batchDims → X = 0 := by
    intro X hX
    have e : d.batchDims = [0] := by
      show Shape.kept _ d.offsetDims = _
      rw [hoff]; rfl
    rw [e] at hX; exact List.mem_singleton.1 hX
  -- ... and its one offset axis is axis 1
  have hod : ∀ X : Fin 2, X ∈ d.offsetDims → X = 1 := by
    intro X hX; rw [hoff] at hX; exact List.mem_singleton.1 hX
  unfold Host.gather
  congr 1
  funext a
  apply Fin.ext
  match a with
  | ⟨0, _⟩ =>
    -- the collapsed, start-indexed axis: the clamped start index, nothing added
    have hk : (0 : Fin 2) ∉ d.sKept := by rw [GatherDims.mem_sKept, hcoll]; simp
    have hm : (0 : Fin 2) ∈ d.startIndexMap := by rw [hsim]; exact List.mem_singleton.mpr rfl
    have hs0 : d.sliceSizes 0 = 1 := by rw [hsl]; rfl
    show d.start (ix2 p q) idx 0 + d.batchCoord (ix2 p q) 0 + d.offCoord (ix2 p q) 0
      = min (idx (ix2 p (0 : Fin 1))).toInt.toNat (N - 1)
    rw [GatherDims.batchCoord_eq_zero _ _ _ (hb 0), GatherDims.offCoord_eq_zero _ _ _ hk, Nat.add_zero]
    unfold GatherDims.start
    rw [dif_pos hm]
    -- the start index is read at (p, 0): p from the result's batch coordinate, 0 on the index vector's axis
    have hsi : d.siIdx (ix2 p q) ⟨List.idxOf (0 : Fin 2) d.startIndexMap, List.idxOf_lt_length_iff.2 hm⟩
        = ix2 p (0 : Fin 1) := by
      funext b
      match b with
      | ⟨0, _⟩ =>
        unfold GatherDims.siIdx
        rw [dif_neg (by rw [hivd]; simp)]
        unfold GatherDims.siCoord
        apply Fin.ext
        simp only [Fin.val_cast]
        exact congrArg (fun X : Fin 2 => ((ix2 p q : (⟨2, ![n, C]⟩ : Shape).Idx) X).val) (hbd _ (List.getElem_mem _))
      | ⟨1, _⟩ =>
        unfold GatherDims.siIdx
        rw [dif_pos (by rw [hivd])]
        apply Fin.ext
        show List.idxOf (0 : Fin 2) d.startIndexMap = 0
        rw [hsim]; simp
    rw [hsi]
    show min (idx (ix2 p (0 : Fin 1))).toInt.toNat (N - d.sliceSizes 0) = _
    rw [hs0]
  | ⟨1, _⟩ =>
    -- the kept axis: start zero, the coordinate is the result's on its offset axis
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1), Nat.add_zero]
    unfold GatherDims.start GatherDims.offCoord
    rw [dif_neg hm, dif_pos hk, Nat.zero_add]
    exact congrArg (fun X : Fin 2 => ((ix2 p q : (⟨2, ![n, C]⟩ : Shape).Idx) X).val) (hod _ (List.getElem_mem _))

end Idealize.ShloMosaic.RowGather
-- ==== Proof.KernelGather.lean ====
/-
  The two gathered node-row arrays the region is launched on, read at an element.

  Each is a row take of the node table X by one row of the index array EI: the index word w is first wrapped (50000
  is added when w < 0), the wrapped words are laid out as a column of start indices, the rows X[clamp(start)] are
  gathered, and a mask  0 ≤ start ≤ 49999  decides between the gathered row and a fill constant.  For a word with
  0 ≤ w < 50000 the wrap leaves w alone and the mask holds, so element (e, k) of the array is X[rowOf w, k] with w the
  index word of edge e.
-/
import proofs.«417609_j9148280340719_1_alg».proof.Proof.KernelArgs
import proofs.«417609_j9148280340719_1_alg».proof.Proof.LibRowGather
import proofs.«417609_j9148280340719_1_alg».proof.Proof.Gen.KernelIdeal.Frame
import Idealize.ShloMosaic.Lib.Pipeline.Value
import Idealize.ShloMosaic.Lib.ValueLayout
import Idealize.ShloMosaic.Lib.StableHlo.Run
import Idealize.ShloMosaic.Lib.StableHlo.Predicate

noncomputable section

namespace Cert.EdgeMlp.KernelGather

open Idealize.ShloMosaic Idealize.ShloMosaic.TcCoe Idealize.ShloMosaic.ValueIdx Idealize.SL.Sem
open Cert.KernelIdeal Cert.KernelIdeal.Gen Cert.EdgeMlp Cert.EdgeMlp.KArgs

variable (m : (ℓ : Loc nD τ sig) → Buf (Elt Ideal) ℓ)

/-! ## The take as one function of the node table and an index vector -/

/-- The index vector wrapped: a negative word has 50000 added. -/
private def tIdx (v : IVec S400000 32) : IVec S400000 32 :=
  select (cmpi .slt v (broadcastInDim S400000 ![] bcast_S_S400000 (constantI S_ 32 0#32)))
    (addi v (broadcastInDim S400000 ![] bcast_S_S400000 (constantI S_ 32 50000#32))) v

/-- The wrapped index vector as a column of start indices. -/
private def tCol (v : IVec S400000 32) : IVec S400000x1 32 :=
  broadcastInDim S400000x1 ![0] bcast_S400000_S400000x1_0 (tIdx v)

/-- The mask of the take: for each position, whether its start index lies in [0, 49999]. -/
private def tMask (v : IVec S400000 32) : IVec S400000 1 :=
  Host.reduce IntOp.andi
    (andi (cmpi .sge (tCol v) (broadcastInDim S400000x1 ![] bcast_S_S400000x1 (constantI S_ 32 0#32)))
      (cmpi .sle (tCol v) (broadcastInDim S400000x1 ![0, 1] bcast_S1x1_S400000x1_0_1
        (broadcastInDim S1x1 ![1] bcast_S1_S1x1_1 (constantI S1 32 49999#32)))))
    (constantI S_ 1 1#1) reducesTo_S400000x1_S400000_d1 h_S_

/-- The take: the gathered rows where the mask holds, the fill constant elsewhere. -/
private def tTake (x : FVec Ideal S50000x128 .f32) (v : IVec S400000 32) : FVec Ideal S400000x128 .f32 :=
  select (broadcastInDim S400000x128 ![0] bcast_S400000_S400000x128_0 (tMask v))
    (Host.gather gather_S50000x128_S400000x1_S400000x128_1_0_n_n_0_1_1128 x (tCol v))
    (broadcastInDim S400000x128 ![] bcast_S_S400000x128 (constant (F := Ideal) S_ .f32 0x7FC00000#32))

/-- Row 0 of the index array as a vector. -/
private def row0 (EI : IVec S2x400000 32) : IVec S400000 32 :=
  shapeCast S400000 (extractStridedSlice S1x400000 ![0, 0] EI slices_S2x400000_S1x400000_0_0) shapeCasts_S1x400000_S400000
/-- Row 1 of the index array as a vector. -/
private def row1 (EI : IVec S2x400000 32) : IVec S400000 32 :=
  shapeCast S400000 (extractStridedSlice S1x400000 ![1, 0] EI slices_S2x400000_S1x400000_1_0) shapeCasts_S1x400000_S400000

/-! ## Index words in range -/

/-- A word that is at least 0 as a signed word is not below 0. -/
private theorem slt_zero_of_sge {w : BitVec 32} (h0 : IntOp.cmpi .sge w 0#32 = 1#1) : IntOp.cmpi .slt w 0#32 = 0#1 := by
  refine eq_zero_of_ne_one fun h => ?_
  have a := IntOp.cmpi_sge.1 h0
  have b := IntOp.cmpi_slt.1 h
  omega

/-- A nonnegative index word is its own wrapped word. -/
private theorem wrapIdx_of_sge {w : BitVec 32} (h0 : IntOp.cmpi .sge w 0#32 = 1#1) : wrapIdx w = w := by
  unfold wrapIdx
  rw [slt_zero_of_sge h0]
  exact select_zero _ _

/-- A word below 50000 is at most 49999. -/
private theorem sle_of_slt {w : BitVec 32} (h1 : IntOp.cmpi .slt w 50000#32 = 1#1) : IntOp.cmpi .sle w 49999#32 = 1#1 := by
  rw [IntOp.cmpi_sle]
  have b := IntOp.cmpi_slt.1 h1
  have e1 : (50000#32 : BitVec 32).toInt = 50000 := by decide
  have e2 : (49999#32 : BitVec 32).toInt = 49999 := by decide
  omega

/-! ## A conjunction over a list that meets only ones -/

private theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1) (1#1) = 1#1 := by decide
    rw [List.foldl_cons, h a List.mem_cons_self, e]
    exact foldl_andi_one f l fun n hn => h n (List.mem_cons_of_mem _ hn)

/-- A reduction by `and` from the constant 1 is 1 at `j` when every operand element reducing into `j` is 1. -/
private theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ fun i hi => hx i ?_
  exact of_decide_eq_true (List.mem_filter.1 hi).2

/-! ## The take read at an element -/

/-- Row 0 of the index array, as a vector, at e. -/
private theorem row0_apply (EI : IVec S2x400000 32) (e : Fin 400000) : row0 EI (ix1 e) = EI (ix2 (0 : Fin 2) e) := by
  unfold row0
  refine (shapeCast_1a_a_apply _ _ e).trans ?_
  refine extractStridedSlice_apply _ _ _ _ (ix2 (0 : Fin 2) e) fun a => ?_
  match a with
  | ⟨0, _⟩ => rfl
  | ⟨1, _⟩ => show e.val = 0 + e.val; omega

/-- Row 1 likewise. -/
private theorem row1_apply (EI : IVec S2x400000 32) (e : Fin 400000) : row1 EI (ix1 e) = EI (ix2 (1 : Fin 2) e) := by
  unfold row1
  refine (shapeCast_1a_a_apply _ _ e).trans ?_
  refine extractStridedSlice_apply _ _ _ _ (ix2 (1 : Fin 2) e) fun a => ?_
  match a with
  | ⟨0, _⟩ => rfl
  | ⟨1, _⟩ => show e.val = 0 + e.val; omega

/-- The wrapped index vector at e is the wrapped word. -/
private theorem tIdx_apply (v : IVec S400000 32) (e : Fin 400000) : tIdx v (ix1 e) = wrapIdx (v (ix1 e)) := rfl

/-- The start-index column at (e, 0) is the wrapped word at e. -/
private theorem tCol_apply (v : IVec S400000 32) (e : Fin 400000) : tCol v (ix2 e (0 : Fin 1)) = wrapIdx (v (ix1 e)) := by
  unfold tCol
  refine (broadcastInDim_apply _ _ _ _ (ix1 e) fun a => ?_).trans (tIdx_apply v e)
  match a with
  | ⟨0, _⟩ => show e.val = if (400000 : Nat) = 1 then 0 else e.val; rw [if_neg (by decide)]

/-- The mask at e is 1 when the wrapped word lies in [0, 49999]: the one element that reduces into position e is the
    conjunction of the two comparisons of that word. -/
private theorem tMask_apply (v : IVec S400000 32) (e : Fin 400000)
    (h0 : IntOp.cmpi .sge (wrapIdx (v (ix1 e))) 0#32 = 1#1) (h1 : IntOp.cmpi .sle (wrapIdx (v (ix1 e))) 49999#32 = 1#1) :
    tMask v (ix1 e) = 1#1 := by
  unfold tMask
  refine reduce_andi_one _ _ _ _ _ rfl fun i hi => ?_
  have hv : ((reducesTo_S400000x1_S400000_d1.drop i 0 : Fin 400000) : Nat) = i 0 :=
    Shape.ReducesTo.drop_apply_val reducesTo_S400000x1_S400000_d1 i 0
  have hi0 : i 0 = e := by
    rw [hi] at hv
    exact Fin.ext hv.symm
  have hi1 : i = ix2 e (0 : Fin 1) := by
    rw [eq_ix2 i, hi0]
    congr 1
    exact Fin.ext (by have := idx2_lt1 i; show (i 1).val = 0; omega)
  subst hi1
  show IntOp.andi (IntOp.cmpi .sge (tCol v (ix2 e (0 : Fin 1))) 0#32) (IntOp.cmpi .sle (tCol v (ix2 e (0 : Fin 1))) 49999#32) = 1#1
  rw [tCol_apply]
  exact IntOp.andi_eq_one.2 ⟨h0, h1⟩

/-- The gathered array at (e, k) is the table at the row the word names. -/
private theorem tGather_apply (x : FVec Ideal S50000x128 .f32) (v : IVec S400000 32) (e : Fin 400000) (k : Fin 128) :
    Host.gather gather_S50000x128_S400000x1_S400000x128_1_0_n_n_0_1_1128 x (tCol v) (ix2 e k)
      = x (ix2 (rowOf (v (ix1 e))) k) := by
  refine (RowGather.gather_rows _ rfl rfl rfl rfl rfl rfl x (tCol v) e k (by decide)).trans ?_
  refine congrArg (fun r : Fin 50000 => x (ix2 r k)) (Fin.ext ?_)
  show min (tCol v (ix2 e (0 : Fin 1))).toInt.toNat (50000 - 1) = min (wrapIdx (v (ix1 e))).toInt.toNat (50000 - 1)
  rw [tCol_apply]

/-- The take at (e, k), for an index word in range: the mask holds, so the element is the gathered one. -/
private theorem tTake_apply (x : FVec Ideal S50000x128 .f32) (v : IVec S400000 32) (e : Fin 400000) (k : Fin 128)
    (h0 : IntOp.cmpi .sge (v (ix1 e)) 0#32 = 1#1) (h1 : IntOp.cmpi .slt (v (ix1 e)) 50000#32 = 1#1) :
    tTake x v (ix2 e k) = x (ix2 (rowOf (v (ix1 e))) k) := by
  have hw : wrapIdx (v (ix1 e)) = v (ix1 e) := wrapIdx_of_sge h0
  have hm : broadcastInDim S400000x128 ![0] bcast_S400000_S400000x128_0 (tMask v) (ix2 e k) = 1#1 := by
    refine (broadcastInDim_apply _ _ _ _ (ix1 e) fun a => ?_).trans
      (tMask_apply v e (by rw [hw]; exact h0) (by rw [hw]; exact sle_of_slt h1))
    match a with
    | ⟨0, _⟩ => show e.val = if (400000 : Nat) = 1 then 0 else e.val; rw [if_neg (by decide)]
  unfold tTake
  rw [select_apply, hm, select_one]
  exact tGather_apply x v e k

/-! ## The two arrays as takes of the argument arrays -/

set_option maxRecDepth 16384 in
/-- The first gathered array is the take of the node table by row 0 of the index array: the value the operations before
    the region leave in its buffer, each operation's result substituted for its operand. -/
private theorem V_v4_eq (c : Dev nD) :
    (V m c main_v4 : S400000x128.Idx → EReal) = tTake (aX m c) (row0 (aEI m c)) := by
  dsimp only [Gen.V]
  simp only [Gen.hostOps0, Gen.hostOps0_1, Gen.hostOps0_2, Gen.hostOps0_3, List.flatten_cons, List.flatten_nil, List.append_nil, List.cons_append, List.nil_append]
  after_results_simp
  simp only [StableHlo.TRef.ofBuf, StableHlo.TRef.toBuf, cast_eq]
  rfl

set_option maxRecDepth 16384 in
/-- The second gathered array is the take by row 1. -/
private theorem V_v5_eq (c : Dev nD) :
    (V m c main_v5 : S400000x128.Idx → EReal) = tTake (aX m c) (row1 (aEI m c)) := by
  dsimp only [Gen.V]
  simp only [Gen.hostOps0, Gen.hostOps0_1, Gen.hostOps0_2, Gen.hostOps0_3, List.flatten_cons, List.flatten_nil, List.append_nil, List.cons_append, List.nil_append]
  after_results_simp
  simp only [StableHlo.TRef.ofBuf, StableHlo.TRef.toBuf, cast_eq]
  rfl

/-! ## The two arrays at an element -/

/-- With the index words in range the first gathered array holds, at (e, k), column k of the node row the word
    EI[0, e] names: the mask the take applies never clears a row. -/
theorem V_v4_apply (c : Dev nD) (hr : InRange m c) (e : Fin 400000) (k : Fin 128) :
    (V m c main_v4 : S400000x128.Idx → EReal) (ix2 e k) = aX m c (ix2 (rowOf (aEI m c (ix2 (0 : Fin 2) e))) k) := by
  have hrow := row0_apply (aEI m c) e
  have h := hr 0 e
  refine (congrFun (V_v4_eq m c) (ix2 e k)).trans ?_
  refine (tTake_apply (aX m c) (row0 (aEI m c)) e k (by rw [hrow]; exact h.1) (by rw [hrow]; exact h.2)).trans ?_
  rw [hrow]

/-- The second gathered array likewise, for the words EI[1, e]. -/
theorem V_v5_apply (c : Dev nD) (hr : InRange m c) (e : Fin 400000) (k : Fin 128) :
    (V m c main_v5 : S400000x128.Idx → EReal) (ix2 e k) = aX m c (ix2 (rowOf (aEI m c (ix2 (1 : Fin 2) e))) k) := by
  have hrow := row1_apply (aEI m c) e
  have h := hr 1 e
  refine (congrFun (V_v5_eq m c) (ix2 e k)).trans ?_
  refine (tTake_apply (aX m c) (row1 (aEI m c)) e k (by rw [hrow]; exact h.1) (by rw [hrow]; exact h.2)).trans ?_
  rw [hrow]

end Cert.EdgeMlp.KernelGather

end
-- ==== Proof.KernelWeights.lean ====
/-
  The eleven weight arrays the region is launched on, read at an element.  Each is a layout image of one argument
  array: the edge and skip weights are transposes of [128, 64] matrices; each half of the node and combine weights
  is the transpose of 128 consecutive columns of a [128, 256] matrix; the three biases and the layer norm's scale
  and shift are [128] vectors laid out as [1, 128] rows.  A transpose exchanges the two coordinates, a column slice
  adds its offset to the column, and a row layout keeps the row-major position, so every element of these arrays is
  one element of an argument array.
-/
import proofs.«417609_j9148280340719_1_alg».proof.Proof.KernelArgs
import proofs.«417609_j9148280340719_1_alg».proof.Proof.Gen.KernelIdeal.Frame
import Idealize.ShloMosaic.Lib.Pipeline.Value
import Idealize.ShloMosaic.Lib.ValueLayout
import Idealize.ShloMosaic.Lib.StableHlo.Run

noncomputable section

namespace Cert.EdgeMlp.KernelWeights

open Idealize.ShloMosaic Idealize.ShloMosaic.TcCoe Idealize.ShloMosaic.ValueIdx Idealize.SL.Sem
open Cert.KernelIdeal Cert.KernelIdeal.Gen Cert.EdgeMlp Cert.EdgeMlp.KArgs

/-! ## The three layouts at an element, over any array -/

/-- Entry (k, j) of the transpose of a [128, 64] array is its entry (j, k). -/
private theorem transposeT_apply (x : S128x64.Idx → EReal) (k : Fin 64) (j : Fin 128) :
    transpose S64x128 [1, 0] x transposes_S128x64_S64x128_1_0 (ix2 k j) = x (ix2 j k) :=
  transpose_apply [1, 0] x transposes_S128x64_S64x128_1_0 (ix2 k j) (ix2 j k) (fun b => match b with
    | ⟨0, _⟩ => rfl
    | ⟨1, _⟩ => rfl)

/-- Entry (k, j) of the transpose of the first 128 columns of a [128, 256] array is its entry (j, k). -/
private theorem halfLo_apply (x : S128x256.Idx → EReal) (k j : Fin 128) :
    transpose S128x128 [1, 0] (extractStridedSlice S128x128 ![0, 0] x slices_S128x256_S128x128_0_0)
        transposes_S128x128_S128x128_1_0 (ix2 k j)
      = x (ix2 j (⟨k.val, by omega⟩ : Fin 256)) := by
  refine (transpose_apply [1, 0] _ transposes_S128x128_S128x128_1_0 (ix2 k j) (ix2 j k) (fun b => match b with
    | ⟨0, _⟩ => rfl
    | ⟨1, _⟩ => rfl)).trans ?_
  exact extractStridedSlice_apply ![0, 0] x slices_S128x256_S128x128_0_0 (ix2 j k)
    (ix2 j (⟨k.val, by omega⟩ : Fin 256)) (fun a => match a with
    | ⟨0, _⟩ => by show j.val = 0 + j.val; omega
    | ⟨1, _⟩ => by show k.val = 0 + k.val; omega)

/-- Entry (k, j) of the transpose of the last 128 columns of a [128, 256] array is its entry (j, 128 + k). -/
private theorem halfHi_apply (x : S128x256.Idx → EReal) (k j : Fin 128) :
    transpose S128x128 [1, 0] (extractStridedSlice S128x128 ![0, 128] x slices_S128x256_S128x128_0_128)
        transposes_S128x128_S128x128_1_0 (ix2 k j)
      = x (ix2 j (⟨128 + k.val, by omega⟩ : Fin 256)) := by
  refine (transpose_apply [1, 0] _ transposes_S128x128_S128x128_1_0 (ix2 k j) (ix2 j k) (fun b => match b with
    | ⟨0, _⟩ => rfl
    | ⟨1, _⟩ => rfl)).trans ?_
  exact extractStridedSlice_apply ![0, 128] x slices_S128x256_S128x128_0_128 (ix2 j k)
    (ix2 j (⟨128 + k.val, by omega⟩ : Fin 256)) (fun a => match a with
    | ⟨0, _⟩ => by show j.val = 0 + j.val; omega
    | ⟨1, _⟩ => by show 128 + k.val = 128 + k.val; omega)

/-- Entry (0, j) of a [128] array laid out as a [1, 128] row is its entry j: both sit at row-major position j. -/
private theorem row_apply (x : S128.Idx → EReal) (j : Fin 128) :
    shapeCast S1x128 x shapeCasts_S128_S1x128 (ix2 (0 : Fin 1) j) = x (ix1 j) :=
  shapeCast_apply x shapeCasts_S128_S1x128 (ix2 (0 : Fin 1) j) (ix1 j)
    (by rewrite [Shape.rowMajor_val_one, Shape.rowMajor_val_two]; show j.val = 0 * 128 + j.val; omega)

/-! ## The eleven arrays -/

variable (m : (ℓ : Loc nD τ sig) → Buf (Elt Ideal) ℓ)

/-- The edge weights transposed. -/
theorem V_v14_apply (c : Dev nD) (k : Fin 64) (j : Fin 128) :
    (V m c main_v14 : S64x128.Idx → EReal) (ix2 k j) = aWe m c (ix2 j k) := by
  have e : (V m c main_v14 : S64x128.Idx → EReal)
      = transpose S64x128 [1, 0] (aWe m c) transposes_S128x64_S64x128_1_0 := by
    dsimp only [Gen.V]
    simp only [Gen.hostOps0, Gen.hostOps0_1, Gen.hostOps0_2, Gen.hostOps0_3, List.flatten_cons, List.flatten_nil, List.append_nil,
      List.cons_append, List.nil_append]
    after_results
  exact (congrFun e (ix2 k j)).trans (transposeT_apply (aWe m c) k j)
/-- The skip weights transposed. -/
theorem V_v15_apply (c : Dev nD) (k : Fin 64) (j : Fin 128) :
    (V m c main_v15 : S64x128.Idx → EReal) (ix2 k j) = aWs m c (ix2 j k) := by
  have e : (V m c main_v15 : S64x128.Idx → EReal)
      = transpose S64x128 [1, 0] (aWs m c) transposes_S128x64_S64x128_1_0 := by
    dsimp only [Gen.V]
    simp only [Gen.hostOps0, Gen.hostOps0_1, Gen.hostOps0_2, Gen.hostOps0_3, List.flatten_cons, List.flatten_nil, List.append_nil,
      List.cons_append, List.nil_append]
    after_results
  exact (congrFun e (ix2 k j)).trans (transposeT_apply (aWs m c) k j)
/-- The first half of the node weights' input axis, transposed. -/
theorem V_v7_apply (c : Dev nD) (k j : Fin 128) :
    (V m c main_v7 : S128x128.Idx → EReal) (ix2 k j) = aWn m c (ix2 j (⟨k.val, by omega⟩ : Fin 256)) := by
  have e : (V m c main_v7 : S128x128.Idx → EReal)
      = transpose S128x128 [1, 0] (extractStridedSlice S128x128 ![0, 0] (aWn m c) slices_S128x256_S128x128_0_0)
          transposes_S128x128_S128x128_1_0 := by
    dsimp only [Gen.V]
    simp only [Gen.hostOps0, Gen.hostOps0_1, Gen.hostOps0_2, Gen.hostOps0_3, List.flatten_cons, List.flatten_nil, List.append_nil,
      List.cons_append, List.nil_append]
    after_results
  exact (congrFun e (ix2 k j)).trans (halfLo_apply (aWn m c) k j)
/-- The second half of the node weights' input axis, transposed. -/
theorem V_v9_apply (c : Dev nD) (k j : Fin 128) :
    (V m c main_v9 : S128x128.Idx → EReal) (ix2 k j) = aWn m c (ix2 j (⟨128 + k.val, by omega⟩ : Fin 256)) := by
  have e : (V m c main_v9 : S128x128.Idx → EReal)
      = transpose S128x128 [1, 0] (extractStridedSlice S128x128 ![0, 128] (aWn m c) slices_S128x256_S128x128_0_128)
          transposes_S128x128_S128x128_1_0 := by
    dsimp only [Gen.V]
    simp only [Gen.hostOps0, Gen.hostOps0_1, Gen.hostOps0_2, Gen.hostOps0_3, List.flatten_cons, List.flatten_nil, List.append_nil,
      List.cons_append, List.nil_append]
    after_results
  exact (congrFun e (ix2 k j)).trans (halfHi_apply (aWn m c) k j)
/-- The first half of the combine weights' input axis, transposed. -/
theorem V_v11_apply (c : Dev nD) (k j : Fin 128) :
    (V m c main_v11 : S128x128.Idx → EReal) (ix2 k j) = aWc m c (ix2 j (⟨k.val, by omega⟩ : Fin 256)) := by
  have e : (V m c main_v11 : S128x128.Idx → EReal)
      = transpose S128x128 [1, 0] (extractStridedSlice S128x128 ![0, 0] (aWc m c) slices_S128x256_S128x128_0_0)
          transposes_S128x128_S128x128_1_0 := by
    dsimp only [Gen.V]
    simp only [Gen.hostOps0, Gen.hostOps0_1, Gen.hostOps0_2, Gen.hostOps0_3, List.flatten_cons, List.flatten_nil, List.append_nil,
      List.cons_append, List.nil_append]
    after_results
  exact (congrFun e (ix2 k j)).trans (halfLo_apply (aWc m c) k j)
/-- The second half of the combine weights' input axis, transposed. -/
theorem V_v13_apply (c : Dev nD) (k j : Fin 128) :
    (V m c main_v13 : S128x128.Idx → EReal) (ix2 k j) = aWc m c (ix2 j (⟨128 + k.val, by omega⟩ : Fin 256)) := by
  have e : (V m c main_v13 : S128x128.Idx → EReal)
      = transpose S128x128 [1, 0] (extractStridedSlice S128x128 ![0, 128] (aWc m c) slices_S128x256_S128x128_0_128)
          transposes_S128x128_S128x128_1_0 := by
    dsimp only [Gen.V]
    simp only [Gen.hostOps0, Gen.hostOps0_1, Gen.hostOps0_2, Gen.hostOps0_3, List.flatten_cons, List.flatten_nil, List.append_nil,
      List.cons_append, List.nil_append]
    after_results
  exact (congrFun e (ix2 k j)).trans (halfHi_apply (aWc m c) k j)
/-- The edge bias as a [1, 128] row. -/
theorem V_v16_apply (c : Dev nD) (j : Fin 128) :
    (V m c main_v16 : S1x128.Idx → EReal) (ix2 (0 : Fin 1) j) = aBe m c (ix1 j) := by
  have e : (V m c main_v16 : S1x128.Idx → EReal)
      = shapeCast S1x128 (aBe m c) shapeCasts_S128_S1x128 := by
    dsimp only [Gen.V]
    simp only [Gen.hostOps0, Gen.hostOps0_1, Gen.hostOps0_2, Gen.hostOps0_3, List.flatten_cons, List.flatten_nil, List.append_nil,
      List.cons_append, List.nil_append]
    after_results
    rfl
  exact (congrFun e (ix2 (0 : Fin 1) j)).trans (row_apply (aBe m c) j)
/-- The node bias as a row. -/
theorem V_v17_apply (c : Dev nD) (j : Fin 128) :
    (V m c main_v17 : S1x128.Idx → EReal) (ix2 (0 : Fin 1) j) = aBn m c (ix1 j) := by
  have e : (V m c main_v17 : S1x128.Idx → EReal)
      = shapeCast S1x128 (aBn m c) shapeCasts_S128_S1x128 := by
    dsimp only [Gen.V]
    simp only [Gen.hostOps0, Gen.hostOps0_1, Gen.hostOps0_2, Gen.hostOps0_3, List.flatten_cons, List.flatten_nil, List.append_nil,
      List.cons_append, List.nil_append]
    after_results
    rfl
  exact (congrFun e (ix2 (0 : Fin 1) j)).trans (row_apply (aBn m c) j)
/-- The combine bias as a row. -/
theorem V_v18_apply (c : Dev nD) (j : Fin 128) :
    (V m c main_v18 : S1x128.Idx → EReal) (ix2 (0 : Fin 1) j) = aBc m c (ix1 j) := by
  have e : (V m c main_v18 : S1x128.Idx → EReal)
      = shapeCast S1x128 (aBc m c) shapeCasts_S128_S1x128 := by
    dsimp only [Gen.V]
    simp only [Gen.hostOps0, Gen.hostOps0_1, Gen.hostOps0_2, Gen.hostOps0_3, List.flatten_cons, List.flatten_nil, List.append_nil,
      List.cons_append, List.nil_append]
    after_results
    rfl
  exact (congrFun e (ix2 (0 : Fin 1) j)).trans (row_apply (aBc m c) j)
/-- The layer norm's scale as a row. -/
theorem V_v19_apply (c : Dev nD) (j : Fin 128) :
    (V m c main_v19 : S1x128.Idx → EReal) (ix2 (0 : Fin 1) j) = aGamma m c (ix1 j) := by
  have e : (V m c main_v19 : S1x128.Idx → EReal)
      = shapeCast S1x128 (aGamma m c) shapeCasts_S128_S1x128 := by
    dsimp only [Gen.V]
    simp only [Gen.hostOps0, Gen.hostOps0_1, Gen.hostOps0_2, Gen.hostOps0_3, List.flatten_cons, List.flatten_nil, List.append_nil,
      List.cons_append, List.nil_append]
    after_results
    rfl
  exact (congrFun e (ix2 (0 : Fin 1) j)).trans (row_apply (aGamma m c) j)
/-- The layer norm's shift as a row. -/
theorem V_v20_apply (c : Dev nD) (j : Fin 128) :
    (V m c main_v20 : S1x128.Idx → EReal) (ix2 (0 : Fin 1) j) = aBeta m c (ix1 j) := by
  have e : (V m c main_v20 : S1x128.Idx → EReal)
      = shapeCast S1x128 (aBeta m c) shapeCasts_S128_S1x128 := by
    dsimp only [Gen.V]
    simp only [Gen.hostOps0, Gen.hostOps0_1, Gen.hostOps0_2, Gen.hostOps0_3, List.flatten_cons, List.flatten_nil, List.append_nil,
      List.cons_append, List.nil_append]
    after_results
    rfl
  exact (congrFun e (ix2 (0 : Fin 1) j)).trans (row_apply (aBeta m c) j)

end Cert.EdgeMlp.KernelWeights

end
-- ==== Proof.KernelValue.lean ====
/-
  The idealized kernel's result array as the block function of the ARGUMENT arrays, under the range condition on the
  index words: the arrays the region is launched on are the gathered node rows (a gather whose mask never clears a
  row when the words are in range), the transposed and halved weights, and the biases as rows.
-/
import proofs.«417609_j9148280340719_1_alg».proof.Proof.KernelArgs
import proofs.«417609_j9148280340719_1_alg».proof.Proof.KernelArray
import proofs.«417609_j9148280340719_1_alg».proof.Proof.KernelGather
import proofs.«417609_j9148280340719_1_alg».proof.Proof.KernelWeights

noncomputable section

namespace Cert.EdgeMlp.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.EdgeMlp Cert.EdgeMlp.KArgs
open Cert.EdgeMlp.KernelBlock Cert.EdgeMlp.KernelArray

variable (m : (ℓ : Loc nD τ sig) → Buf (Elt Ideal) ℓ) (ρ : Dev nD → PrngReg)

/-- Weight blocks that are the transposes, halves and rows of [out, in] weight arrays give the parameter record of
    those arrays: field by field. -/
theorem blockParams_eq_paramsOf (x3 : Vec Ideal S64x128 .f32) (x4 : Vec Ideal S1x128 .f32) (x5 x6 : Vec Ideal S128x128 .f32)
    (x7 : Vec Ideal S1x128 .f32) (x8 x9 : Vec Ideal S128x128 .f32) (x10 : Vec Ideal S1x128 .f32)
    (x11 : Vec Ideal S64x128 .f32) (x12 x13 : Vec Ideal S1x128 .f32)
    (We : S128x64.Idx → EReal) (be : S128.Idx → EReal) (Wn : S128x256.Idx → EReal) (bn : S128.Idx → EReal)
    (Wc : S128x256.Idx → EReal) (bc : S128.Idx → EReal) (Ws : S128x64.Idx → EReal) (gamma beta : S128.Idx → EReal)
    (h3 : ∀ (k : Fin 64) (j : Fin 128), x3 (ix2 k j) = We (ix2 j k))
    (h4 : ∀ j : Fin 128, x4 (ix2 (0 : Fin 1) j) = be (ix1 j))
    (h5 : ∀ k j : Fin 128, x5 (ix2 k j) = Wn (ix2 j (⟨k.val, by omega⟩ : Fin 256)))
    (h6 : ∀ k j : Fin 128, x6 (ix2 k j) = Wn (ix2 j (⟨128 + k.val, by omega⟩ : Fin 256)))
    (h7 : ∀ j : Fin 128, x7 (ix2 (0 : Fin 1) j) = bn (ix1 j))
    (h8 : ∀ k j : Fin 128, x8 (ix2 k j) = Wc (ix2 j (⟨k.val, by omega⟩ : Fin 256)))
    (h9 : ∀ k j : Fin 128, x9 (ix2 k j) = Wc (ix2 j (⟨128 + k.val, by omega⟩ : Fin 256)))
    (h10 : ∀ j : Fin 128, x10 (ix2 (0 : Fin 1) j) = bc (ix1 j))
    (h11 : ∀ (k : Fin 64) (j : Fin 128), x11 (ix2 k j) = Ws (ix2 j k))
    (h12 : ∀ j : Fin 128, x12 (ix2 (0 : Fin 1) j) = gamma (ix1 j))
    (h13 : ∀ j : Fin 128, x13 (ix2 (0 : Fin 1) j) = beta (ix1 j)) :
    blockParams x3 x4 x5 x6 x7 x8 x9 x10 x11 x12 x13 = paramsOf We be Wn bn Wc bc Ws gamma beta :=
  Params.ext (funext fun k => funext fun j => h3 k j) (funext fun j => h4 j) (funext fun k => funext fun j => h5 k j)
    (funext fun k => funext fun j => h6 k j) (funext fun j => h7 j) (funext fun k => funext fun j => h8 k j)
    (funext fun k => funext fun j => h9 k j) (funext fun j => h10 j) (funext fun k => funext fun j => h11 k j)
    (funext fun j => h12 j) (funext fun j => h13 j)

/-- The weights the region is launched on are the argument arrays' weights in (input, output) orientation. -/
theorem launchedParams_eq (c : Dev nD) : launchedParams m c = aParams m c :=
  blockParams_eq_paramsOf (V m c main_v14) (V m c main_v16) (V m c main_v7) (V m c main_v9) (V m c main_v17)
    (V m c main_v11) (V m c main_v13) (V m c main_v18) (V m c main_v15) (V m c main_v19) (V m c main_v20)
    (aWe m c) (aBe m c) (aWn m c) (aBn m c) (aWc m c) (aBc m c) (aWs m c) (aGamma m c) (aBeta m c)
    (KernelWeights.V_v14_apply m c) (KernelWeights.V_v16_apply m c) (KernelWeights.V_v7_apply m c)
    (KernelWeights.V_v9_apply m c) (KernelWeights.V_v17_apply m c) (KernelWeights.V_v11_apply m c)
    (KernelWeights.V_v13_apply m c) (KernelWeights.V_v18_apply m c) (KernelWeights.V_v15_apply m c)
    (KernelWeights.V_v19_apply m c) (KernelWeights.V_v20_apply m c)

/-- With the index words in range, the function of the launched arrays is the block function of the arguments. -/
theorem launched_eq_result (c : Dev nD) (hr : InRange m c) :
    launched m c = result (aX m c) (aEI m c) (aEA m c) (aParams m c) := by
  funext i
  obtain ⟨e, j, rfl⟩ : ∃ (e : Fin 400000) (j : Fin 128), i = ix2 e j := ⟨i 0, i 1, eq_ix2 i⟩
  show rowOut (launchedParams m c) _ _ _ j = rowOut (aParams m c) _ _ _ j
  exact rowOut_congr (launchedParams_eq m c) (funext fun k => KernelGather.V_v4_apply m c hr e k)
    (funext fun k => KernelGather.V_v5_apply m c hr e k) (funext fun k => congrFun (V_main_arg2 m c) (ix2 e k)) j

/-- The kernel's run, read: its result array ends as the block function of the argument arrays, which stay as launched. -/
theorem run (hr : ∀ c, InRange m c) :
    θ_run defs (onTc (τ := τ) (main (F := Ideal))) ⟨m, fun _ => 0, ρ⟩ fun r => ∀ c : Dev nD,
      r.2.mem ((c : Thread nD τ).loc main_v21) = result (aX m c) (aEI m c) (aEA m c) (aParams m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans ((final_launched m c).trans (launched_eq_result m c (hr c))), (h c).2⟩)
    (Cert.KernelIdeal.Value.run_blocks m ρ)

end Cert.EdgeMlp.KernelValue

end
-- ==== Proof.PreDecode.lean ====
/-
  The precondition, decoded: its last conjunct says every index word is in range.

  The precondition is a conjunction of one-bit words, each the conjunction ("all") of an elementwise test over one
  argument array; the last is, over the index array, of  0 ≤ w  and  w < 50000  (signed).  A conjunction that is 1 has
  both operands 1, and a conjunction over an array that is 1 met a 1 at every element.
-/
import proofs.«417609_j9148280340719_1_alg».proof.Defs
import proofs.«417609_j9148280340719_1_alg».proof.Proof.KernelArgs
import proofs.«417609_j9148280340719_1_alg».proof.Proof.Gen.Pre_finite_inputs
import Idealize.ShloMosaic.Lib.ReduceAll
import Idealize.ShloMosaic.Lib.Affine
import Idealize.ShloMosaic.Lib.StableHlo.Predicate

noncomputable section

namespace Cert.EdgeMlp.PreDecode

open Idealize.ShloMosaic Idealize.ShloMosaic.TcCoe Idealize.ShloMosaic.ValueIdx Idealize.SL.Sem
open Cert.KernelIdeal Cert.EdgeMlp Cert.EdgeMlp.KArgs

/-- A rank-0 array has one index. -/
private instance : Subsingleton (⟨0, ![]⟩ : Shape).Idx := ⟨fun _ _ => funext fun d => d.elim0⟩

/-- Under the precondition of the idealized kernel every index word lies in [0, 50000). -/
theorem inRange_of_pre (m : (ℓ : Loc nD τ sig) → Buf (Elt Ideal) ℓ) (h : Cert.Pre_KernelIdeal m) (c : Dev nD) :
    InRange m c := by
  intro s e
  have h0 := congrFun (h c) ValueIdx.ix0
  dsimp only [Cert.Pre_finite_inputs.fn, Cert.Pre_finite_inputs.fn_part1, Cert.Pre_finite_inputs.fn_part2,
    Cert.Pre_finite_inputs.fn_part3] at h0
  -- the whole is (the tests of the other arrays) ∧ (the test of the index array)
  have h1 := (IntOp.andi_eq_one.1 h0).2
  -- the test of the index array is the conjunction over all (s, e) of the two comparisons of EI[s, e]
  have h2 := Host.reduce_andi_all _ _ _ _ _ h1 (ix2 s e)
  exact IntOp.andi_eq_one.1 h2

end Cert.EdgeMlp.PreDecode

end
-- ==== Proof.RefRows.lean ====
/-
  The reference's doubled-edge stage after the combine layer, read at an element of its forward half and of its
  reversed half.  The reference lists every edge twice, once as given and once with its endpoints exchanged, by
  joining the two rows of the edge index in both orders; each of its three dense layers is then a dot product
  over a joined axis, which splits into the sum over the two joined pieces.  Row e of the doubled array is the
  block's one direction on the edge's two node rows, row 400000 + e the same with the node rows exchanged.
-/
import proofs.«417609_j9148280340719_1_alg».proof.Proof.Spec
import proofs.«417609_j9148280340719_1_alg».proof.Proof.LibRowGather
import proofs.«417609_j9148280340719_1_alg».proof.Proof.ReadP
import Idealize.ShloMosaic.Lib.Pipeline.Value
import Idealize.ShloMosaic.Lib.ValueIdx
import Idealize.ShloMosaic.PureOps.Ideal.Laws

noncomputable section

namespace Cert.EdgeMlp.RefRows

open Idealize.ShloMosaic Idealize.ShloMosaic.ValueIdx
open Cert.ReferenceIdeal Cert.ReferenceIdeal.Gen Cert.ReferenceIdeal.ReadP Cert.EdgeMlp

variable (x0 : (⟨S50000x128, .f32⟩ : BufTy).Contents (Elt Ideal)) (x1 : (⟨S2x400000, .i32⟩ : BufTy).Contents (Elt Ideal))
  (x2 : (⟨S400000x64, .f32⟩ : BufTy).Contents (Elt Ideal)) (x3 : (⟨S128x64, .f32⟩ : BufTy).Contents (Elt Ideal))
  (x4 : (⟨S128, .f32⟩ : BufTy).Contents (Elt Ideal)) (x5 : (⟨S128x256, .f32⟩ : BufTy).Contents (Elt Ideal))
  (x6 : (⟨S128, .f32⟩ : BufTy).Contents (Elt Ideal)) (x7 : (⟨S128x256, .f32⟩ : BufTy).Contents (Elt Ideal))
  (x8 : (⟨S128, .f32⟩ : BufTy).Contents (Elt Ideal)) (x9 : (⟨S128x64, .f32⟩ : BufTy).Contents (Elt Ideal))
  (x10 x11 : (⟨S128, .f32⟩ : BufTy).Contents (Elt Ideal))

/-! ## The doubled index words

The source words are the first row of the edge index followed by the second; the destination words are the second
row followed by the first. -/

/-- Source word e (e < 400000) is EI[0, e]. -/
private theorem v4_fwd (e : Fin 400000) :
    val_main_v4 (F := Ideal) x1 (ix1 (⟨e.val, by omega⟩ : Fin 800000)) = x1 (ix2 (0 : Fin 2) e) := by
  unfold val_main_v4
  refine (concatenate_pair_apply_left (0 : Fin S800000.rank) (val_main_v1 (F := Ideal) x1) (val_main_v3 (F := Ideal) x1)
    concatenates_S400000_S400000_S800000_d0 (ix1 (⟨e.val, by omega⟩ : Fin 800000)) rfl (ix1 e)
    (fun b => match b with | ⟨0, _⟩ => rfl)).trans ?_
  rw [val_main_v1_apply, val_main_v0_apply]
  congr 1
  funext a
  match a with
  | ⟨0, _⟩ => exact Fin.ext rfl
  | ⟨1, _⟩ => exact Fin.ext (Nat.mod_eq_of_lt e.isLt)

/-- Source word 400000 + e is EI[1, e]. -/
private theorem v4_bwd (e : Fin 400000) :
    val_main_v4 (F := Ideal) x1 (ix1 (⟨400000 + e.val, by omega⟩ : Fin 800000)) = x1 (ix2 (1 : Fin 2) e) := by
  unfold val_main_v4
  refine (concatenate_pair_apply_right (0 : Fin S800000.rank) (val_main_v1 (F := Ideal) x1) (val_main_v3 (F := Ideal) x1)
    concatenates_S400000_S400000_S800000_d0 (ix1 (⟨400000 + e.val, by omega⟩ : Fin 800000)) rfl rfl (ix1 e)
    (fun b => match b with | ⟨0, _⟩ => fun hb => absurd rfl hb)
    (by show e.val + 400000 = 400000 + e.val; omega)).trans ?_
  rw [val_main_v3_apply, val_main_v2_apply]
  congr 1
  funext a
  match a with
  | ⟨0, _⟩ => exact Fin.ext rfl
  | ⟨1, _⟩ => exact Fin.ext (Nat.mod_eq_of_lt e.isLt)

/-- Destination word e (e < 400000) is EI[1, e]. -/
private theorem v5_fwd (e : Fin 400000) :
    val_main_v5 (F := Ideal) x1 (ix1 (⟨e.val, by omega⟩ : Fin 800000)) = x1 (ix2 (1 : Fin 2) e) := by
  unfold val_main_v5
  refine (concatenate_pair_apply_left (0 : Fin S800000.rank) (val_main_v3 (F := Ideal) x1) (val_main_v1 (F := Ideal) x1)
    concatenates_S400000_S400000_S800000_d0 (ix1 (⟨e.val, by omega⟩ : Fin 800000)) rfl (ix1 e)
    (fun b => match b with | ⟨0, _⟩ => rfl)).trans ?_
  rw [val_main_v3_apply, val_main_v2_apply]
  congr 1
  funext a
  match a with
  | ⟨0, _⟩ => exact Fin.ext rfl
  | ⟨1, _⟩ => exact Fin.ext (Nat.mod_eq_of_lt e.isLt)

/-- Destination word 400000 + e is EI[0, e]. -/
private theorem v5_bwd (e : Fin 400000) :
    val_main_v5 (F := Ideal) x1 (ix1 (⟨400000 + e.val, by omega⟩ : Fin 800000)) = x1 (ix2 (0 : Fin 2) e) := by
  unfold val_main_v5
  refine (concatenate_pair_apply_right (0 : Fin S800000.rank) (val_main_v3 (F := Ideal) x1) (val_main_v1 (F := Ideal) x1)
    concatenates_S400000_S400000_S800000_d0 (ix1 (⟨400000 + e.val, by omega⟩ : Fin 800000)) rfl rfl (ix1 e)
    (fun b => match b with | ⟨0, _⟩ => fun hb => absurd rfl hb)
    (by show e.val + 400000 = 400000 + e.val; omega)).trans ?_
  rw [val_main_v1_apply, val_main_v0_apply]
  congr 1
  funext a
  match a with
  | ⟨0, _⟩ => exact Fin.ext rfl
  | ⟨1, _⟩ => exact Fin.ext (Nat.mod_eq_of_lt e.isLt)

/-! ## Wrapping and the two gathers -/

/-- The wrapped source word: a negative word has 50000 added. -/
private theorem v10_eq (i : S800000.Idx) :
    val_main_v10 (F := Ideal) x1 i = wrapIdx (val_main_v4 (F := Ideal) x1 i) := by
  rw [val_main_v10_apply, val_main_v7_apply, val_main_v9_apply, val_main_v6_apply, val_main_v8_apply]
  rfl

/-- The wrapped destination word. -/
private theorem v17_eq (i : S800000.Idx) :
    val_main_v17 (F := Ideal) x1 i = wrapIdx (val_main_v5 (F := Ideal) x1 i) := by
  rw [val_main_v17_apply, val_main_v14_apply, val_main_v16_apply, val_main_v13_apply, val_main_v15_apply]
  rfl

/-- A table row named by a clamped word that is the wrapping of u is the row rowOf u. -/
private theorem row_of_word (w u : BitVec 32) (h : w = wrapIdx u) (k : Fin 128)
    (p : min w.toInt.toNat (50000 - 1) < 50000) :
    x0 (ix2 (⟨min w.toInt.toNat (50000 - 1), p⟩ : Fin 50000) k) = x0 (ix2 (rowOf u) k) := by
  subst h; rfl

/-- Row e' of the gathered source rows is the node row its source word names. -/
private theorem v12_eq (e' : Fin 800000) (k : Fin 128) :
    val_main_v12 (F := Ideal) x0 x1 (ix2 e' k) = x0 (ix2 (rowOf (val_main_v4 (F := Ideal) x1 (ix1 e'))) k) := by
  have hw : val_main_v11 (F := Ideal) x1 (ix2 e' (0 : Fin 1)) = wrapIdx (val_main_v4 (F := Ideal) x1 (ix1 e')) := by
    rw [val_main_v11_apply]
    have h : idx_main_v11 (ix2 e' (0 : Fin 1)) = ix1 e' := by
      funext a; match a with | ⟨0, _⟩ => rfl
    rw [h, v10_eq]
  unfold val_main_v12
  exact (RowGather.gather_rows (N := 50000) (C := 128) (n := 800000)
    gather_S50000x128_S800000x1_S800000x128_1_0_n_n_0_1_1128 rfl rfl rfl rfl rfl rfl x0
    (val_main_v11 (F := Ideal) x1) e' k (by decide)).trans
    (row_of_word x0 (val_main_v11 (F := Ideal) x1 (ix2 e' (0 : Fin 1))) (val_main_v4 (F := Ideal) x1 (ix1 e')) hw k _)

/-- Row e' of the gathered destination rows is the node row its destination word names. -/
private theorem v19_eq (e' : Fin 800000) (k : Fin 128) :
    val_main_v19 (F := Ideal) x0 x1 (ix2 e' k) = x0 (ix2 (rowOf (val_main_v5 (F := Ideal) x1 (ix1 e'))) k) := by
  have hw : val_main_v18 (F := Ideal) x1 (ix2 e' (0 : Fin 1)) = wrapIdx (val_main_v5 (F := Ideal) x1 (ix1 e')) := by
    rw [val_main_v18_apply]
    have h : idx_main_v18 (ix2 e' (0 : Fin 1)) = ix1 e' := by
      funext a; match a with | ⟨0, _⟩ => rfl
    rw [h, v17_eq]
  unfold val_main_v19
  exact (RowGather.gather_rows (N := 50000) (C := 128) (n := 800000)
    gather_S50000x128_S800000x1_S800000x128_1_0_n_n_0_1_1128 rfl rfl rfl rfl rfl rfl x0
    (val_main_v18 (F := Ideal) x1) e' k (by decide)).trans
    (row_of_word x0 (val_main_v18 (F := Ideal) x1 (ix2 e' (0 : Fin 1))) (val_main_v5 (F := Ideal) x1 (ix1 e')) hw k _)

/-! ## Concatenations read at an index -/

/-- Two [800000, 128] arrays joined along the lanes, read in the first 128 lanes: the first array. -/
private theorem cat_lanes_left (y₁ y₂ : S800000x128.Idx → EReal) (e' : Fin 800000) (k : Fin 128) :
    concatenate S800000x256 1 [⟨S800000x128, y₁⟩, ⟨S800000x128, y₂⟩] concatenates_S800000x128_S800000x128_S800000x256_d1
      (ix2 e' (⟨k.val, by omega⟩ : Fin 256)) = y₁ (ix2 e' k) :=
  concatenate_pair_apply_left (1 : Fin S800000x256.rank) y₁ y₂ concatenates_S800000x128_S800000x128_S800000x256_d1
    (ix2 e' (⟨k.val, by omega⟩ : Fin 256)) rfl (ix2 e' k)
    (fun b => match b with | ⟨0, _⟩ => rfl | ⟨1, _⟩ => rfl)

/-- Two [800000, 128] arrays joined along the lanes, read in the last 128 lanes: the second array. -/
private theorem cat_lanes_right (y₁ y₂ : S800000x128.Idx → EReal) (e' : Fin 800000) (k : Fin 128) :
    concatenate S800000x256 1 [⟨S800000x128, y₁⟩, ⟨S800000x128, y₂⟩] concatenates_S800000x128_S800000x128_S800000x256_d1
      (ix2 e' (⟨128 + k.val, by omega⟩ : Fin 256)) = y₂ (ix2 e' k) :=
  concatenate_pair_apply_right (1 : Fin S800000x256.rank) y₁ y₂ concatenates_S800000x128_S800000x128_S800000x256_d1
    (ix2 e' (⟨128 + k.val, by omega⟩ : Fin 256)) rfl rfl (ix2 e' k)
    (fun b => match b with | ⟨0, _⟩ => fun _ => rfl | ⟨1, _⟩ => fun hb => absurd rfl hb)
    (by show k.val + 128 = 128 + k.val; omega)

/-- The doubled edge attributes, row e (e < 400000): row e of the attributes. -/
private theorem v21_fwd (e : Fin 400000) (k : Fin 64) :
    val_main_v21 (F := Ideal) x2 (ix2 (⟨e.val, by omega⟩ : Fin 800000) k) = x2 (ix2 e k) := by
  unfold val_main_v21
  exact concatenate_pair_apply_left (0 : Fin S800000x64.rank) x2 x2 concatenates_S400000x64_S400000x64_S800000x64_d0
    (ix2 (⟨e.val, by omega⟩ : Fin 800000) k) rfl (ix2 e k)
    (fun b => match b with | ⟨0, _⟩ => rfl | ⟨1, _⟩ => rfl)

/-- The doubled edge attributes, row 400000 + e: row e of the attributes again. -/
private theorem v21_bwd (e : Fin 400000) (k : Fin 64) :
    val_main_v21 (F := Ideal) x2 (ix2 (⟨400000 + e.val, by omega⟩ : Fin 800000) k) = x2 (ix2 e k) := by
  unfold val_main_v21
  exact concatenate_pair_apply_right (0 : Fin S800000x64.rank) x2 x2 concatenates_S400000x64_S400000x64_S800000x64_d0
    (ix2 (⟨400000 + e.val, by omega⟩ : Fin 800000) k) rfl rfl (ix2 e k)
    (fun b => match b with | ⟨0, _⟩ => fun hb => absurd rfl hb | ⟨1, _⟩ => fun _ => rfl)
    (by show e.val + 400000 = 400000 + e.val; omega)

/-! ## The three dense layers at an element -/

/-- The node layer at (e', q): the 256-long dot product against row q of the node weights is the sum of its two
    128-long halves, the gathered source row against the first half and the gathered destination row against the
    second; then the bias and the clamp at zero. -/
private theorem v27_eq (e' : Fin 800000) (q : Fin 128) :
    val_main_v27 (F := Ideal) x0 x1 x5 x6 (ix2 e' q)
      = relu (((∑ k : Fin 128, val_main_v12 (F := Ideal) x0 x1 (ix2 e' k) * x5 (ix2 q (⟨k.val, by omega⟩ : Fin 256)))
          + (∑ k : Fin 128, val_main_v19 (F := Ideal) x0 x1 (ix2 e' k) * x5 (ix2 q (⟨128 + k.val, by omega⟩ : Fin 256))))
          + x6 (ix1 q)) := by
  rw [val_main_v27_apply, val_main_v26_apply, val_main_v23_apply, val_main_v25_apply, val_main_v24_apply,
    val_main_call0_v0_apply, val_main_call0_cst_apply, sum_split]
  refine congrArg₂ max (congrArg₂ (· + ·) (congrArg₂ (· + ·) (Finset.sum_congr rfl fun k _ => ?_)
    (Finset.sum_congr rfl fun k _ => ?_)) ?_) rfl
  · refine congrArg₂ (· * ·) ?_ ?_
    · have hl : lidx_main_v23 (ix2 e' q) (⟨k.val, by omega⟩ : Fin 256) = ix2 e' (⟨k.val, by omega⟩ : Fin 256) := by
        funext a; match a with | ⟨0, _⟩ => rfl | ⟨1, _⟩ => rfl
      rw [hl]
      unfold val_main_v20
      exact cat_lanes_left _ _ e' k
    · rw [val_main_v22_apply]
      congr 1
      funext a; match a with | ⟨0, _⟩ => rfl | ⟨1, _⟩ => rfl
  · refine congrArg₂ (· * ·) ?_ ?_
    · have hl : lidx_main_v23 (ix2 e' q) (⟨128 + k.val, by omega⟩ : Fin 256) = ix2 e' (⟨128 + k.val, by omega⟩ : Fin 256) := by
        funext a; match a with | ⟨0, _⟩ => rfl | ⟨1, _⟩ => rfl
      rw [hl]
      unfold val_main_v20
      exact cat_lanes_right _ _ e' k
    · rw [val_main_v22_apply]
      congr 1
      funext a; match a with | ⟨0, _⟩ => rfl | ⟨1, _⟩ => rfl
  · congr 1
    funext a; match a with | ⟨0, _⟩ => rfl

/-- The edge layer at (e', q): the attributes' row against row q of the edge weights, the bias, the clamp at zero. -/
private theorem v33_eq (e' : Fin 800000) (q : Fin 128) :
    val_main_v33 (F := Ideal) x2 x3 x4 (ix2 e' q)
      = relu ((∑ k : Fin 64, val_main_v21 (F := Ideal) x2 (ix2 e' k) * x3 (ix2 q k)) + x4 (ix1 q)) := by
  rw [val_main_v33_apply, val_main_v32_apply, val_main_v29_apply, val_main_v31_apply, val_main_v30_apply,
    val_main_call1_v0_apply, val_main_call1_cst_apply]
  refine congrArg₂ max (congrArg₂ (· + ·) (Finset.sum_congr rfl fun k _ => ?_) ?_) rfl
  · refine congrArg₂ (· * ·) ?_ ?_
    · congr 1
      funext a; match a with | ⟨0, _⟩ => rfl | ⟨1, _⟩ => rfl
    · rw [val_main_v28_apply]
      congr 1
      funext a; match a with | ⟨0, _⟩ => rfl | ⟨1, _⟩ => rfl
  · congr 1
    funext a; match a with | ⟨0, _⟩ => rfl

/-- The combine layer at (e', j): the 256-long dot product against row j of the combine weights is the node
    layer's row against the first half plus the edge layer's row against the second; the bias; the clamp at zero. -/
private theorem v40_eq (e' : Fin 800000) (j : Fin 128) :
    val_main_v40 (F := Ideal) x0 x1 x2 x3 x4 x5 x6 x7 x8 (ix2 e' j)
      = relu (((∑ k : Fin 128, val_main_v27 (F := Ideal) x0 x1 x5 x6 (ix2 e' k) * x7 (ix2 j (⟨k.val, by omega⟩ : Fin 256)))
          + (∑ k : Fin 128, val_main_v33 (F := Ideal) x2 x3 x4 (ix2 e' k) * x7 (ix2 j (⟨128 + k.val, by omega⟩ : Fin 256))))
          + x8 (ix1 j)) := by
  rw [val_main_v40_apply, val_main_v39_apply, val_main_v36_apply, val_main_v38_apply, val_main_v37_apply,
    val_main_call2_v0_apply, val_main_call2_cst_apply, sum_split]
  refine congrArg₂ max (congrArg₂ (· + ·) (congrArg₂ (· + ·) (Finset.sum_congr rfl fun k _ => ?_)
    (Finset.sum_congr rfl fun k _ => ?_)) ?_) rfl
  · refine congrArg₂ (· * ·) ?_ ?_
    · have hl : lidx_main_v36 (ix2 e' j) (⟨k.val, by omega⟩ : Fin 256) = ix2 e' (⟨k.val, by omega⟩ : Fin 256) := by
        funext a; match a with | ⟨0, _⟩ => rfl | ⟨1, _⟩ => rfl
      rw [hl]
      unfold val_main_v34
      exact cat_lanes_left _ _ e' k
    · rw [val_main_v35_apply]
      congr 1
      funext a; match a with | ⟨0, _⟩ => rfl | ⟨1, _⟩ => rfl
  · refine congrArg₂ (· * ·) ?_ ?_
    · have hl : lidx_main_v36 (ix2 e' j) (⟨128 + k.val, by omega⟩ : Fin 256) = ix2 e' (⟨128 + k.val, by omega⟩ : Fin 256) := by
        funext a; match a with | ⟨0, _⟩ => rfl | ⟨1, _⟩ => rfl
      rw [hl]
      unfold val_main_v34
      exact cat_lanes_right _ _ e' k
    · rw [val_main_v35_apply]
      congr 1
      funext a; match a with | ⟨0, _⟩ => rfl | ⟨1, _⟩ => rfl
  · congr 1
    funext a; match a with | ⟨0, _⟩ => rfl

/-! ## A row of the doubled array as the block's one direction -/

/-- If row e' of the gathered source rows is a, of the gathered destination rows b, and of the doubled attributes
    ee, then row e' after the combine layer is comb a b ee: the three layers above are the three projections of
    the block, with the weights' halves as paramsOf splits them. -/
private theorem v40_row (e' : Fin 800000) (a b : Fin 128 → EReal) (ee : Fin 64 → EReal)
    (ha : ∀ k : Fin 128, val_main_v12 (F := Ideal) x0 x1 (ix2 e' k) = a k)
    (hb : ∀ k : Fin 128, val_main_v19 (F := Ideal) x0 x1 (ix2 e' k) = b k)
    (he : ∀ k : Fin 64, val_main_v21 (F := Ideal) x2 (ix2 e' k) = ee k) (j : Fin 128) :
    val_main_v40 (F := Ideal) x0 x1 x2 x3 x4 x5 x6 x7 x8 (ix2 e' j)
      = comb (paramsOf x3 x4 x5 x6 x7 x8 x9 x10 x11) a b ee j := by
  rw [v40_eq]
  unfold comb
  refine congrArg relu (congrArg₂ (· + ·) (congrArg₂ (· + ·) (Finset.sum_congr rfl fun k _ => ?_)
    (Finset.sum_congr rfl fun k _ => ?_)) rfl)
  · refine congrArg₂ (· * ·) ?_ rfl
    rw [v27_eq]
    unfold pn
    refine congrArg relu (congrArg₂ (· + ·) (congrArg₂ (· + ·) (Finset.sum_congr rfl fun i _ => ?_)
      (Finset.sum_congr rfl fun i _ => ?_)) rfl)
    · exact congrArg₂ (· * ·) (ha i) rfl
    · exact congrArg₂ (· * ·) (hb i) rfl
  · refine congrArg₂ (· * ·) ?_ rfl
    rw [v33_eq]
    unfold pe
    refine congrArg relu (congrArg₂ (· + ·) (Finset.sum_congr rfl fun i _ => ?_) rfl)
    exact congrArg₂ (· * ·) (he i) rfl

/-- Row e of the doubled array (e < 400000) is the edge taken forward: first endpoint's node row against the first
    half of the node weights, second endpoint's against the second half. -/
theorem v40_fwd (e : Fin 400000) (j : Fin 128) :
    val_main_v40 (F := Ideal) x0 x1 x2 x3 x4 x5 x6 x7 x8 (ix2 (⟨e.val, by omega⟩ : Fin 800000) j)
      = comb (paramsOf x3 x4 x5 x6 x7 x8 x9 x10 x11)
          (fun k => x0 (ix2 (rowOf (x1 (ix2 (0 : Fin 2) e))) k)) (fun k => x0 (ix2 (rowOf (x1 (ix2 (1 : Fin 2) e))) k))
          (fun k => x2 (ix2 e k)) j :=
  v40_row x0 x1 x2 x3 x4 x5 x6 x7 x8 x9 x10 x11 (⟨e.val, by omega⟩ : Fin 800000) _ _ _
    (fun k => (v12_eq x0 x1 _ k).trans (by rw [v4_fwd]))
    (fun k => (v19_eq x0 x1 _ k).trans (by rw [v5_fwd]))
    (fun k => v21_fwd x2 e k) j

/-- Row 400000 + e of the doubled array is the same edge reversed: the two node rows change places. -/
theorem v40_bwd (e : Fin 400000) (j : Fin 128) :
    val_main_v40 (F := Ideal) x0 x1 x2 x3 x4 x5 x6 x7 x8 (ix2 (⟨400000 + e.val, by omega⟩ : Fin 800000) j)
      = comb (paramsOf x3 x4 x5 x6 x7 x8 x9 x10 x11)
          (fun k => x0 (ix2 (rowOf (x1 (ix2 (1 : Fin 2) e))) k)) (fun k => x0 (ix2 (rowOf (x1 (ix2 (0 : Fin 2) e))) k))
          (fun k => x2 (ix2 e k)) j :=
  v40_row x0 x1 x2 x3 x4 x5 x6 x7 x8 x9 x10 x11 (⟨400000 + e.val, by omega⟩ : Fin 800000) _ _ _
    (fun k => (v12_eq x0 x1 _ k).trans (by rw [v4_bwd]))
    (fun k => (v19_eq x0 x1 _ k).trans (by rw [v5_bwd]))
    (fun k => v21_bwd x2 e k) j

end Cert.EdgeMlp.RefRows

end
-- ==== Proof.RefNorm.lean ====
/-
  The reference from the doubled-edge stage to its result: the two halves averaged, the skip projection added, and
  the layer norm, each read at an element.  Every operation on this stretch is elementwise, a layout operation that
  reads one element of its operand, or a sum along the 128 lanes (the skip product a sum over the 64 attributes), so
  an element of the result is a closed expression in the elements of the doubled stage and of the arguments: the one
  the block's mathematics writes down.
-/
import proofs.«417609_j9148280340719_1_alg».proof.Proof.Spec
import proofs.«417609_j9148280340719_1_alg».proof.Proof.ReadP
import Idealize.ShloMosaic.Lib.Pipeline.Value
import Idealize.ShloMosaic.Lib.ValueIdx
import Idealize.ShloMosaic.PureOps.Ideal.Laws

noncomputable section

namespace Cert.EdgeMlp.RefNorm

open Idealize.ShloMosaic Idealize.ShloMosaic.ValueIdx
open Cert.ReferenceIdeal Cert.ReferenceIdeal.Gen Cert.ReferenceIdeal.ReadP Cert.EdgeMlp

variable (x0 : (⟨S50000x128, .f32⟩ : BufTy).Contents (Elt Ideal)) (x1 : (⟨S2x400000, .i32⟩ : BufTy).Contents (Elt Ideal))
  (x2 : (⟨S400000x64, .f32⟩ : BufTy).Contents (Elt Ideal)) (x3 : (⟨S128x64, .f32⟩ : BufTy).Contents (Elt Ideal))
  (x4 : (⟨S128, .f32⟩ : BufTy).Contents (Elt Ideal)) (x5 : (⟨S128x256, .f32⟩ : BufTy).Contents (Elt Ideal))
  (x6 : (⟨S128, .f32⟩ : BufTy).Contents (Elt Ideal)) (x7 : (⟨S128x256, .f32⟩ : BufTy).Contents (Elt Ideal))
  (x8 : (⟨S128, .f32⟩ : BufTy).Contents (Elt Ideal)) (x9 : (⟨S128x64, .f32⟩ : BufTy).Contents (Elt Ideal))
  (x10 x11 : (⟨S128, .f32⟩ : BufTy).Contents (Elt Ideal))

/-! ## The index maps of the layout operations, at an index given by its coordinates -/

/-- The lower slice reads row e of the doubled stage. -/
private theorem idx41 (e : Fin 400000) (j : Fin 128) :
    idx_main_v41 (ix2 e j) = ix2 (⟨e.val, by omega⟩ : Fin 800000) j :=
  funext fun a => by match a with | ⟨0, _⟩ => rfl | ⟨1, _⟩ => rfl

/-- The upper slice reads row 400000 + e of the doubled stage. -/
private theorem idx42 (e : Fin 400000) (j : Fin 128) :
    idx_main_v42 (ix2 e j) = ix2 (⟨400000 + e.val, by omega⟩ : Fin 800000) j :=
  funext fun a => by match a with | ⟨0, _⟩ => rfl | ⟨1, _⟩ => rfl

/-- The skip product's left factor at (e, j), term k, is the edge attribute (e, k). -/
private theorem lidx47 (e : Fin 400000) (j : Fin 128) (k : Fin 64) :
    lidx_main_v47 (ix2 e j) k = ix2 e k :=
  funext fun a => by match a with | ⟨0, _⟩ => rfl | ⟨1, _⟩ => rfl

/-- The skip product's right factor at (e, j), term k, is the transposed weight at (k, j), the weight at (j, k). -/
private theorem ridx47 (e : Fin 400000) (j : Fin 128) (k : Fin 64) :
    idx_main_v46 (ridx_main_v47 (ix2 e j) k) = ix2 j k :=
  funext fun a => by match a with | ⟨0, _⟩ => rfl | ⟨1, _⟩ => rfl

/-- The pre-norm stage at (e, j): rows e and 400000 + e of the doubled stage averaged, plus the skip projection
    of edge e's attributes. -/
theorem v48_apply (e : Fin 400000) (j : Fin 128) :
    val_main_v48 (F := Ideal) x0 x1 x2 x3 x4 x5 x6 x7 x8 x9 (ix2 e j)
      = (val_main_v40 (F := Ideal) x0 x1 x2 x3 x4 x5 x6 x7 x8 (ix2 (⟨e.val, by omega⟩ : Fin 800000) j)
          + val_main_v40 (F := Ideal) x0 x1 x2 x3 x4 x5 x6 x7 x8 (ix2 (⟨400000 + e.val, by omega⟩ : Fin 800000) j)) * cHalf
        + ∑ k : Fin 64, x2 (ix2 e k) * x9 (ix2 j k) := by
  rw [val_main_v48_apply, val_main_v45_apply, val_main_v43_apply, val_main_v41_apply, val_main_v42_apply,
    val_main_v44_apply, val_main_cst_apply, val_main_v47_apply, idx41, idx42]
  simp only [val_main_v46_apply, lidx47, ridx47]
  rfl

/-! ## The layer norm, operation by operation

  Every layout operation of the norm (the broadcasts of a row's sum to a column and back over the lanes, of the scale
  and the shift along the rows) reads one element of its operand; at an index given by its coordinates the element it
  reads is again given by coordinates. -/

local notation "preNorm" => val_main_v48 (F := Ideal) x0 x1 x2 x3 x4 x5 x6 x7 x8 x9

/-- Term k of the sum for row e is the element (e, k). -/
private theorem idx49 (e : Fin 400000) (k : Fin 128) : idx_main_v49 (ix1 e) k = ix2 e k :=
  funext fun a => by match a with | ⟨0, _⟩ => rfl | ⟨1, _⟩ => rfl

/-- The column entry (e, 0) is entry e of the vector of sums. -/
private theorem idx50 (e : Fin 400000) (z : Fin 1) : idx_main_v50 (ix2 e z) = ix1 e :=
  funext fun a => by match a with | ⟨0, _⟩ => rfl

/-- Every lane of row e reads the column entry (e, 0) of the means. -/
private theorem idx53 (e : Fin 400000) (j : Fin 128) :
    idx_main_v53 (ix2 e j) = ix2 e (⟨0, Nat.one_pos⟩ : Fin 1) :=
  funext fun a => by match a with | ⟨0, _⟩ => rfl | ⟨1, _⟩ => rfl

/-- Term k of the sum of squares for row e is the element (e, k). -/
private theorem idx56 (e : Fin 400000) (k : Fin 128) : idx_main_v56 (ix1 e) k = ix2 e k :=
  funext fun a => by match a with | ⟨0, _⟩ => rfl | ⟨1, _⟩ => rfl

/-- The column entry (e, 0) is entry e of the vector of sums of squares. -/
private theorem idx57 (e : Fin 400000) (z : Fin 1) : idx_main_v57 (ix2 e z) = ix1 e :=
  funext fun a => by match a with | ⟨0, _⟩ => rfl

/-- Every lane of row e reads the column entry (e, 0) of the means. -/
private theorem idx60 (e : Fin 400000) (j : Fin 128) :
    idx_main_v60 (ix2 e j) = ix2 e (⟨0, Nat.one_pos⟩ : Fin 1) :=
  funext fun a => by match a with | ⟨0, _⟩ => rfl | ⟨1, _⟩ => rfl

/-- Every lane of row e reads the column entry (e, 0) of the reciprocal deviations. -/
private theorem idx65 (e : Fin 400000) (j : Fin 128) :
    idx_main_v65 (ix2 e j) = ix2 e (⟨0, Nat.one_pos⟩ : Fin 1) :=
  funext fun a => by match a with | ⟨0, _⟩ => rfl | ⟨1, _⟩ => rfl

/-- The scale broadcast along the rows reads lane j of the scale vector. -/
private theorem idx68 (e : Fin 400000) (j : Fin 128) : idx_main_v67 (idx_main_v68 (ix2 e j)) = ix1 j :=
  funext fun a => by match a with | ⟨0, _⟩ => rfl

/-- The shift broadcast along the rows reads lane j of the shift vector. -/
private theorem idx71 (e : Fin 400000) (j : Fin 128) : idx_main_v70 (idx_main_v71 (ix2 e j)) = ix1 j :=
  funext fun a => by match a with | ⟨0, _⟩ => rfl

/-- Entry e of the first reduction is the sum of row e: the initial value is 0. -/
private theorem v49_at (e : Fin 400000) :
    val_main_v49 (F := Ideal) x0 x1 x2 x3 x4 x5 x6 x7 x8 x9 (ix1 e) = ∑ k : Fin 128, preNorm (ix2 e k) := by
  rw [val_main_v49_apply, val_main_cst_3_apply, Ideal.ofBits_def, Ideal.ofBits_zero_f32, zero_add]
  simp only [idx49]

/-- The mean of row e, as the column entry (e, 0). -/
private theorem v52_at (e : Fin 400000) (z : Fin 1) :
    val_main_v52 (F := Ideal) x0 x1 x2 x3 x4 x5 x6 x7 x8 x9 (ix2 e z)
      = Ideal.div (∑ k : Fin 128, preNorm (ix2 e k)) cLanes := by
  rw [val_main_v52_apply, val_main_v50_apply, val_main_v51_apply, val_main_cst_4_apply, idx50, v49_at,
    Ideal.hostDivf_def, Ideal.ofBits_def]

/-- The mean of row e broadcast over the lanes. -/
private theorem v53_at (e : Fin 400000) (j : Fin 128) :
    val_main_v53 (F := Ideal) x0 x1 x2 x3 x4 x5 x6 x7 x8 x9 (ix2 e j)
      = Ideal.div (∑ k : Fin 128, preNorm (ix2 e k)) cLanes := by
  rw [val_main_v53_apply, idx53, v52_at]

/-- Entry e of the second reduction is the sum of the squared deviations of row e from its mean. -/
private theorem v56_at (e : Fin 400000) :
    val_main_v56 (F := Ideal) x0 x1 x2 x3 x4 x5 x6 x7 x8 x9 (ix1 e)
      = ∑ k : Fin 128, (preNorm (ix2 e k) - Ideal.div (∑ k : Fin 128, preNorm (ix2 e k)) cLanes)
          * (preNorm (ix2 e k) - Ideal.div (∑ k : Fin 128, preNorm (ix2 e k)) cLanes) := by
  rw [val_main_v56_apply, val_main_cst_5_apply, Ideal.ofBits_def, Ideal.ofBits_zero_f32, zero_add]
  simp only [idx56, val_main_v55_apply, val_main_v54_apply, v53_at, Ideal.mulf_def, Ideal.subf_def]

/-- The reciprocal standard deviation of row e, as the column entry (e, 0). -/
private theorem v64_at (e : Fin 400000) (z : Fin 1) :
    val_main_v64 (F := Ideal) x0 x1 x2 x3 x4 x5 x6 x7 x8 x9 (ix2 e z)
      = Ideal.rsqrt (Ideal.div (∑ k : Fin 128, (preNorm (ix2 e k) - Ideal.div (∑ k : Fin 128, preNorm (ix2 e k)) cLanes)
          * (preNorm (ix2 e k) - Ideal.div (∑ k : Fin 128, preNorm (ix2 e k)) cLanes)) cLanes + cEps) := by
  rw [val_main_v64_apply, val_main_v63_apply, val_main_v59_apply, val_main_v57_apply, val_main_v58_apply,
    val_main_cst_6_apply, val_main_v62_apply, val_main_cst_7_apply, idx57, v56_at, Ideal.hostUnary_rsqrt_def,
    Ideal.addf_def, Ideal.hostDivf_def, Ideal.ofBits_def, Ideal.ofBits_def]

/-- The result at (e, j): the layer norm of row e of the pre-norm stage. -/
theorem v72_apply (e : Fin 400000) (j : Fin 128) :
    val_main_v72 (F := Ideal) x0 x1 x2 x3 x4 x5 x6 x7 x8 x9 x10 x11 (ix2 e j)
      = layerNorm (fun q => val_main_v48 (F := Ideal) x0 x1 x2 x3 x4 x5 x6 x7 x8 x9 (ix2 e q))
          (fun q => x10 (ix1 q)) (fun q => x11 (ix1 q)) j := by
  rw [val_main_v72_apply, val_main_v69_apply, val_main_v66_apply, val_main_v61_apply, val_main_v60_apply,
    val_main_v65_apply, val_main_v68_apply, val_main_v67_apply, val_main_v71_apply, val_main_v70_apply,
    idx60, idx65, idx68, idx71, v52_at, v64_at]
  rfl

end Cert.EdgeMlp.RefNorm

end
-- ==== Proof.RefValue.lean ====
/-
  The reference's result array is the block function of the argument arrays.
-/
import proofs.«417609_j9148280340719_1_alg».proof.Proof.Spec
import proofs.«417609_j9148280340719_1_alg».proof.Proof.RefRows
import proofs.«417609_j9148280340719_1_alg».proof.Proof.RefNorm
import proofs.«417609_j9148280340719_1_alg».proof.Proof.ReadP

noncomputable section

namespace Cert.EdgeMlp.RefValue

open Idealize.ShloMosaic Idealize.ShloMosaic.ValueIdx
open Cert.ReferenceIdeal Cert.ReferenceIdeal.Gen Cert.ReferenceIdeal.ReadP Cert.EdgeMlp

variable (x0 : (⟨S50000x128, .f32⟩ : BufTy).Contents (Elt Ideal)) (x1 : (⟨S2x400000, .i32⟩ : BufTy).Contents (Elt Ideal))
  (x2 : (⟨S400000x64, .f32⟩ : BufTy).Contents (Elt Ideal)) (x3 : (⟨S128x64, .f32⟩ : BufTy).Contents (Elt Ideal))
  (x4 : (⟨S128, .f32⟩ : BufTy).Contents (Elt Ideal)) (x5 : (⟨S128x256, .f32⟩ : BufTy).Contents (Elt Ideal))
  (x6 : (⟨S128, .f32⟩ : BufTy).Contents (Elt Ideal)) (x7 : (⟨S128x256, .f32⟩ : BufTy).Contents (Elt Ideal))
  (x8 : (⟨S128, .f32⟩ : BufTy).Contents (Elt Ideal)) (x9 : (⟨S128x64, .f32⟩ : BufTy).Contents (Elt Ideal))
  (x10 x11 : (⟨S128, .f32⟩ : BufTy).Contents (Elt Ideal))

/-- Every element of the reference's result is the block applied to the edge's two node rows and its attribute row:
    the layer norm of the averaged two directions plus the skip projection. -/
theorem ref_eq_result :
    val_main_v72 (F := Ideal) x0 x1 x2 x3 x4 x5 x6 x7 x8 x9 x10 x11
      = result x0 x1 x2 (paramsOf x3 x4 x5 x6 x7 x8 x9 x10 x11) := by
  funext i
  obtain ⟨e, j, rfl⟩ : ∃ (e : Fin 400000) (j : Fin 128), i = ix2 e j := ⟨i 0, i 1, eq_ix2 i⟩
  rw [RefNorm.v72_apply]
  show layerNorm _ _ _ j = layerNorm _ _ _ j
  congr 1
  funext q
  rw [RefNorm.v48_apply, RefRows.v40_fwd x0 x1 x2 x3 x4 x5 x6 x7 x8 x9 x10 x11, RefRows.v40_bwd x0 x1 x2 x3 x4 x5 x6 x7 x8 x9 x10 x11]
  rfl

end Cert.EdgeMlp.RefValue

end
-- ==== Proof.lean ====
/-
  The certificate of the fused edge block: a Pallas kernel that, for each of 400000 edges, gathers the edge's two
  node rows, runs three dense layers in both directions of the edge, averages the directions, adds a skip projection
  of the edge attributes and layer-normalises — against the jnp reference that doubles the edge list instead.

  Both idealized programs compute ONE function of the argument arrays, `Cert.EdgeMlp.result` (Proof/Spec.lean): at
  edge e and lane j the layer norm of  (comb a b + comb b a) · ½ + e · Wsᵀ  where a, b are the node rows the edge's two
  index words name and `comb` is the combine layer over the node projection of the ordered pair and the edge
  projection.  The kernel applies the node and combine weights half by half to the two rows; the reference applies
  the whole 256-wide weights to the concatenated rows of its doubled edge list, rows e and 400000 + e being the two
  directions.  A sum over a concatenation is the sum over its halves, so the two agree, with no appeal to finiteness.

  The index words are assumed to name rows of the node table (0 ≤ w < 50000): the kernel's gather replaces an
  out-of-range row by a not-a-number filler where the reference's clamps the index, so outside that range the two
  programs differ; inside it the kernel's mask never clears a row (Proof/KernelGather.lean) and both read row w.

  Frames: the two kernels' are the generated ones; the reference has no kernel and its frame is its run
  (Proof/RefRun.lean: the 89 host operations read stretch by stretch) with the result dropped.  The idealization pass rewrote nothing, so `preserves` is trivial.
-/
import proofs.«417609_j9148280340719_1_alg».proof.Defs
import proofs.«417609_j9148280340719_1_alg».proof.Proof.Gen.Kernel
import proofs.«417609_j9148280340719_1_alg».proof.Proof.Gen.Kernel.Skeleton
import proofs.«417609_j9148280340719_1_alg».proof.Proof.Gen.Kernel.Launch
import proofs.«417609_j9148280340719_1_alg».proof.Proof.Gen.Kernel.Points
import proofs.«417609_j9148280340719_1_alg».proof.Proof.Gen.Kernel.Frame
import proofs.«417609_j9148280340719_1_alg».proof.Proof.Gen.KernelIdeal
import proofs.«417609_j9148280340719_1_alg».proof.Proof.Gen.KernelIdeal.Skeleton
import proofs.«417609_j9148280340719_1_alg».proof.Proof.Gen.KernelIdeal.Launch
import proofs.«417609_j9148280340719_1_alg».proof.Proof.Gen.KernelIdeal.Points
import proofs.«417609_j9148280340719_1_alg».proof.Proof.Gen.KernelIdeal.Frame
import proofs.«417609_j9148280340719_1_alg».proof.Proof.Gen.ReferenceIdeal
import proofs.«417609_j9148280340719_1_alg».proof.Proof.Gen.Pre_finite_inputs
import proofs.«417609_j9148280340719_1_alg».proof.Proof.Gen.KernelIdeal.Value
import proofs.«417609_j9148280340719_1_alg».proof.Proof.RefRun
import proofs.«417609_j9148280340719_1_alg».proof.Proof.KernelValue
import proofs.«417609_j9148280340719_1_alg».proof.Proof.PreDecode
import proofs.«417609_j9148280340719_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.EdgeMlp.RefRun.run (F := Ideal) m ρ)

/-- From memories that agree on the twelve arguments, with the index words in range, the kernel's result array and
    the reference's both end as `result` of the arguments. -/
theorem algebraic : Cert.algebraic_KernelIdeal_ReferenceIdeal := by
  intro m ρ m' ρ' hpre hagree
  refine ⟨fun c => Cert.EdgeMlp.result (Cert.EdgeMlp.KArgs.aX m c) (Cert.EdgeMlp.KArgs.aEI m c)
      (Cert.EdgeMlp.KArgs.aEA m c) (Cert.EdgeMlp.KArgs.aParams m c),
    Cert.EdgeMlp.KernelValue.run m ρ (fun c => Cert.EdgeMlp.PreDecode.inRange_of_pre m hpre c), ?_⟩
  refine (θ_run Cert.ReferenceIdeal.defs _ _).mono (fun _ h c => ⟨(h c).1.trans ?_, (h c).2⟩)
    (Cert.EdgeMlp.RefRun.run (F := Ideal) m' ρ')
  rw [Cert.EdgeMlp.RefValue.ref_eq_result]
  obtain ⟨h0, h1, h2, h3, h4, h5, h6, h7, h8, h9, h10, h11⟩ := hagree c
  rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
